-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x1024 : Shape := ⟨2, ![2048, 1024]⟩
abbrev S1024 : Shape := ⟨1, ![1024]⟩
abbrev S1024x1024 : Shape := ⟨2, ![1024, 1024]⟩
abbrev S1024x2048 : Shape := ⟨2, ![1024, 2048]⟩
abbrev S2048 : Shape := ⟨1, ![2048]⟩
abbrev S2048x128 : Shape := ⟨2, ![2048, 128]⟩
abbrev S128 : Shape := ⟨1, ![128]⟩
abbrev S128x2048 : Shape := ⟨2, ![128, 2048]⟩
abbrev S128x256 : Shape := ⟨2, ![128, 256]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_
  bcast_S_S128x2048 : S_.BroadcastsInDim S128x2048 (![] : Fin 0 → Fin S128x2048.rank)
  reducesTo_S128x2048_S_d0_1 : S128x2048.ReducesTo [0, 1] S_
  bcast_S_S128x256 : S_.BroadcastsInDim S128x256 (![] : Fin 0 → Fin S128x256.rank)
  reducesTo_S128x256_S_d0_1 : S128x256.ReducesTo [0, 1] S_

variable [Facts]

def fn_part5 {F : FTy → Type} [FloatOps F] (main_v83 : IVec S_ 1) (main_v84 : FVec F S128x256 .f32) (main_cst_32 : FVec F S_ .f32) : IVec S_ 1 :=
  let main_v85 : FVec F S128x256 .f32 := broadcastInDim S128x256 ![] bcast_S_S128x256 main_cst_32
  let main_v86 : IVec S128x256 1 := cmpf .olt main_v84 main_v85
  let main_c_33 : IVec S_ 1 := constantI S_ 1 1#1
  let main_v87 : IVec S_ 1 := (fun x v => Host.reduce IntOp.andi x v reducesTo_S128x256_S_d0_1 h_S_) main_v86 main_c_33
  let main_v88 : IVec S_ 1 := andi main_v83 main_v87
  main_v88

def fn_part4 {F : FTy → Type} [FloatOps F] (main_arg14 : FVec F S1024 .f32) (main_arg15 : FVec F S1024x2048 .f32) (main_arg16 : FVec F S2048 .f32) (main_arg17 : FVec F S128x256 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x2048 .f32 := Host.absf main_arg15
  let main_cst_28 : FVec F S_ .f32 := constant S_ .f32 0x7F800000#32
  let main_v75 : FVec F S1024x2048 .f32 := broadcastInDim S1024x2048 ![] bcast_S_S1024x2048 main_cst_28
  let main_v76 : IVec S1024x2048 1 := cmpf .olt main_v74 main_v75
  let main_c_29 : IVec S_ 1 := constantI S_ 1 1#1
  let main_v77 : IVec S_ 1 := (fun x v => Host.reduce IntOp.andi x v reducesTo_S1024x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S128x256 .f32 := Host.absf main_arg17
  let main_cst_32 : FVec F S_ .f32 := constant S_ .f32 0x7F800000#32
  fn_part5 (F := F) main_v83 main_v84 main_cst_32

def fn_part3 {F : FTy → Type} [FloatOps F] (main_arg11 : FVec F S2048x1024 .f32) (main_arg12 : FVec F S1024 .f32) (main_arg13 : FVec F S1024x1024 .f32) (main_arg14 : FVec F S1024 .f32) (main_arg15 : FVec F S1024x2048 .f32) (main_arg16 : FVec F S2048 .f32) (main_arg17 : FVec F S128x256 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x1024 .f32 := Host.absf main_arg11
  let main_cst_20 : FVec F S_ .f32 := constant S_ .f32 0x7F800000#32
  let main_v55 : FVec F S2048x1024 .f32 := broadcastInDim S2048x1024 ![] bcast_S_S2048x1024 main_cst_20
  let main_v56 : IVec S2048x1024 1 := cmpf .olt main_v54 main_v55
  let main_c_21 : IVec S_ 1 := constantI S_ 1 1#1
  let main_v57 : IVec S_ 1 := (fun x v => Host.reduce IntOp.andi x v reducesTo_S2048x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_v63 main_v67

def fn_part2 {F : FTy → Type} [FloatOps F] (main_arg7 : FVec F S2048x128 .f32) (main_arg8 : FVec F S128 .f32) (main_arg9 : FVec F S128x2048 .f32) (main_arg10 : FVec F S2048 .f32) (main_arg11 : FVec F S2048x1024 .f32) (main_arg12 : FVec F S1024 .f32) (main_arg13 : FVec F S1024x1024 .f32) (main_arg14 : FVec F S1024 .f32) (main_arg15 : FVec F S1024x2048 .f32) (main_arg16 : FVec F S2048 .f32) (main_arg17 : FVec F S128x256 .f32) (main_v33 : IVec S_ 1) : IVec S_ 1 :=
  let main_v34 : FVec F S2048x128 .f32 := Host.absf main_arg7
  let main_cst_12 : FVec F S_ .f32 := constant S_ .f32 0x7F800000#32
  let main_v35 : FVec F S2048x128 .f32 := broadcastInDim S2048x128 ![] bcast_S_S2048x128 main_cst_12
  let main_v36 : IVec S2048x128 1 := cmpf .olt main_v34 main_v35
  let main_c_13 : IVec S_ 1 := constantI S_ 1 1#1
  let main_v37 : IVec S_ 1 := (fun x v => Host.reduce IntOp.andi x v reducesTo_S2048x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2048 .f32 := Host.absf main_arg9
  let main_cst_16 : FVec F S_ .f32 := constant S_ .f32 0x7F800000#32
  let main_v45 : FVec F S128x2048 .f32 := broadcastInDim S128x2048 ![] bcast_S_S128x2048 main_cst_16
  let main_v46 : IVec S128x2048 1 := cmpf .olt main_v44 main_v45
  let main_c_17 : IVec S_ 1 := constantI S_ 1 1#1
  let main_v47 : IVec S_ 1 := (fun x v => Host.reduce IntOp.andi x v reducesTo_S128x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_v48 main_v49 main_v50

def fn_part1 {F : FTy → Type} [FloatOps F] (main_arg4 : FVec F S1024 .f32) (main_arg5 : FVec F S1024x2048 .f32) (main_arg6 : FVec F S2048 .f32) (main_arg7 : FVec F S2048x128 .f32) (main_arg8 : FVec F S128 .f32) (main_arg9 : FVec F S128x2048 .f32) (main_arg10 : FVec F S2048 .f32) (main_arg11 : FVec F S2048x1024 .f32) (main_arg12 : FVec F S1024 .f32) (main_arg13 : FVec F S1024x1024 .f32) (main_arg14 : FVec F S1024 .f32) (main_arg15 : FVec F S1024x2048 .f32) (main_arg16 : FVec F S2048 .f32) (main_arg17 : FVec F S128x256 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x2048 .f32) (main_arg1 : FVec F S2048x1024 .f32) (main_arg2 : FVec F S1024 .f32) (main_arg3 : FVec F S1024x1024 .f32) (main_arg4 : FVec F S1024 .f32) (main_arg5 : FVec F S1024x2048 .f32) (main_arg6 : FVec F S2048 .f32) (main_arg7 : FVec F S2048x128 .f32) (main_arg8 : FVec F S128 .f32) (main_arg9 : FVec F S128x2048 .f32) (main_arg10 : FVec F S2048 .f32) (main_arg11 : FVec F S2048x1024 .f32) (main_arg12 : FVec F S1024 .f32) (main_arg13 : FVec F S1024x1024 .f32) (main_arg14 : FVec F S1024 .f32) (main_arg15 : FVec F S1024x2048 .f32) (main_arg16 : FVec F S2048 .f32) (main_arg17 : FVec F S128x256 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16384x2048 : Shape := ⟨2, ![16384, 2048]⟩
abbrev S2048x1024 : Shape := ⟨2, ![2048, 1024]⟩
abbrev S1024 : Shape := ⟨1, ![1024]⟩
abbrev S1024x1024 : Shape := ⟨2, ![1024, 1024]⟩
abbrev S1024x2048 : Shape := ⟨2, ![1024, 2048]⟩
abbrev S2048 : Shape := ⟨1, ![2048]⟩
abbrev S2048x128 : Shape := ⟨2, ![2048, 128]⟩
abbrev S128 : Shape := ⟨1, ![128]⟩
abbrev S128x2048 : Shape := ⟨2, ![128, 2048]⟩
abbrev S128x256 : Shape := ⟨2, ![128, 256]⟩
abbrev S1x1024 : Shape := ⟨2, ![1, 1024]⟩
abbrev S1x2048 : Shape := ⟨2, ![1, 2048]⟩
abbrev S1x128 : Shape := ⟨2, ![1, 128]⟩
abbrev S256 : Shape := ⟨1, ![256]⟩
abbrev S_ : Shape := ⟨0, ![]⟩
abbrev S32 : Shape := ⟨1, ![32]⟩
abbrev S256x1 : Shape := ⟨2, ![256, 1]⟩
abbrev S1x32 : Shape := ⟨2, ![1, 32]⟩
abbrev S256x32 : Shape := ⟨2, ![256, 32]⟩
abbrev S16384x32 : Shape := ⟨2, ![16384, 32]⟩
abbrev S16384x128 : Shape := ⟨2, ![16384, 128]⟩
abbrev S256x2048 : Shape := ⟨2, ![256, 2048]⟩
abbrev S256x128 : Shape := ⟨2, ![256, 128]⟩
abbrev S256x1024 : Shape := ⟨2, ![256, 1024]⟩
abbrev S256x256 : Shape := ⟨2, ![256, 256]⟩

abbrev nBuf : Space → Nat
  | .hbm => 64
  | .vmem => 26
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S2048, .f32⟩
  | .hbm, ⟨7, _⟩ => ⟨S2048x128, .f32⟩
  | .hbm, ⟨8, _⟩ => ⟨S128, .f32⟩
  | .hbm, ⟨9, _⟩ => ⟨S128x2048, .f32⟩
  | .hbm, ⟨10, _⟩ => ⟨S2048, .f32⟩
  | .hbm, ⟨11, _⟩ => ⟨S2048x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x2048, .f32⟩
  | .hbm, ⟨16, _⟩ => ⟨S2048, .f32⟩
  | .hbm, ⟨17, _⟩ => ⟨S128x256, .f32⟩
  | .hbm, ⟨18, _⟩ => ⟨S2048x1024, .bf16⟩
  | .hbm, ⟨19, _⟩ => ⟨S1024x1024, .bf16⟩
  | .hbm, ⟨20, _⟩ => ⟨S1024x2048, .bf16⟩
  | .hbm, ⟨21, _⟩ => ⟨S2048x128, .bf16⟩
  | .hbm, ⟨22, _⟩ => ⟨S128x2048, .bf16⟩
  | .hbm, ⟨23, _⟩ => ⟨S2048x1024, .bf16⟩
  | .hbm, ⟨24, _⟩ => ⟨S1024x1024, .bf16⟩
  | .hbm, ⟨25, _⟩ => ⟨S1024x2048, .bf16⟩
  | .hbm, ⟨26, _⟩ => ⟨S128x256, .bf16⟩
  | .hbm, ⟨27, _⟩ => ⟨S1x1024, .f32⟩
  | .hbm, ⟨28, _⟩ => ⟨S1x1024, .f32⟩
  | .hbm, ⟨29, _⟩ => ⟨S1x2048, .f32⟩
  | .hbm, ⟨30, _⟩ => ⟨S1x128, .f32⟩
  | .hbm, ⟨31, _⟩ => ⟨S1x2048, .f32⟩
  | .hbm, ⟨32, _⟩ => ⟨S1x1024, .f32⟩
  | .hbm, ⟨33, _⟩ => ⟨S1x1024, .f32⟩
  | .hbm, ⟨34, _⟩ => ⟨S1x2048, .f32⟩
  | .hbm, ⟨35, _⟩ => ⟨S256, .i32⟩
  | .hbm, ⟨36, _⟩ => ⟨S_, .i32⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S256, .i32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i1⟩
  | .hbm, ⟨49, _⟩ => ⟨S256, .i1⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S32, .i32⟩
  | .hbm, ⟨55, _⟩ => ⟨S256x1, .i32⟩
  | .hbm, ⟨56, _⟩ => ⟨S1x32, .i32⟩
  | .hbm, ⟨57, _⟩ => ⟨S256x32, .i32⟩
  | .hbm, ⟨58, _⟩ => ⟨S256x32, .i32⟩
  | .hbm, ⟨59, _⟩ => ⟨S256x32, .i1⟩
  | .hbm, ⟨60, _⟩ => ⟨S256x32, .bf16⟩
  | .hbm, ⟨61, _⟩ => ⟨S16384x2048, .f32⟩
  | .hbm, ⟨62, _⟩ => ⟨S16384x32, .f32⟩
  | .hbm, ⟨63, _⟩ => ⟨S16384x128, .f32⟩
  | .local _ .vmem, ⟨0, _⟩ => ⟨S256x2048, .f32⟩
  | .local _ .vmem, ⟨1, _⟩ => ⟨S256x2048, .f32⟩
  | .local _ .vmem, ⟨2, _⟩ => ⟨S2048x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x2048, .bf16⟩
  | .local _ .vmem, ⟨7, _⟩ => ⟨S1x2048, .f32⟩
  | .local _ .vmem, ⟨8, _⟩ => ⟨S2048x128, .bf16⟩
  | .local _ .vmem, ⟨9, _⟩ => ⟨S1x128, .f32⟩
  | .local _ .vmem, ⟨10, _⟩ => ⟨S128x2048, .bf16⟩
  | .local _ .vmem, ⟨11, _⟩ => ⟨S1x2048, .f32⟩
  | .local _ .vmem, ⟨12, _⟩ => ⟨S2048x1024, .bf16⟩
  | .local _ .vmem, ⟨13, _⟩ => ⟨S1x1024, .f32⟩
  | .local _ .vmem, ⟨14, _⟩ => ⟨S1024x1024, .bf16⟩
  | .local _ .vmem, ⟨15, _⟩ => ⟨S1x1024, .f32⟩
  | .local _ .vmem, ⟨16, _⟩ => ⟨S1024x2048, .bf16⟩
  | .local _ .vmem, ⟨17, _⟩ => ⟨S1x2048, .f32⟩
  | .local _ .vmem, ⟨18, _⟩ => ⟨S128x256, .bf16⟩
  | .local _ .vmem, ⟨19, _⟩ => ⟨S256x32, .bf16⟩
  | .local _ .vmem, ⟨20, _⟩ => ⟨S256x2048, .f32⟩
  | .local _ .vmem, ⟨21, _⟩ => ⟨S256x2048, .f32⟩
  | .local _ .vmem, ⟨22, _⟩ => ⟨S256x32, .f32⟩
  | .local _ .vmem, ⟨23, _⟩ => ⟨S256x32, .f32⟩
  | .local _ .vmem, ⟨24, _⟩ => ⟨S256x128, .f32⟩
  | .local _ .vmem, ⟨25, _⟩ => ⟨S256x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26_0 : Ref sig .tc := ⟨.hbm, 61, rfl⟩
abbrev main_v26_1 : Ref sig .tc := ⟨.hbm, 62, rfl⟩
abbrev main_v26_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21
abbrev cc0_sem20_0 : DmaSem sig := 22
abbrev cc0_sem20_1 : DmaSem sig := 23
abbrev cc0_sem21_0 : DmaSem sig := 24
abbrev cc0_sem21_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x32 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x32 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  bitsLt_bf16_f32 : FTy.bits .bf16 < FTy.bits .f32
  shapeCasts_S1024_S1x1024 : S1024.ShapeCasts S1x1024
  shapeCasts_S2048_S1x2048 : S2048.ShapeCasts S1x2048
  shapeCasts_S128_S1x128 : S128.ShapeCasts S1x128
  bcast_S_S256 : S_.BroadcastsInDim S256 (![] : Fin 0 → Fin S256.rank)
  bcast_S256_S256x1_0 : S256.BroadcastsInDim S256x1 (![0] : Fin 1 → Fin S256x1.rank)
  bcast_S32_S1x32_1 : S32.BroadcastsInDim S1x32 (![1] : Fin 1 → Fin S1x32.rank)
  bcast_S256x1_S256x32_0_1 : S256x1.BroadcastsInDim S256x32 (![0, 1] : Fin 2 → Fin S256x32.rank)
  bcast_S1x32_S256x32_0_1 : S1x32.BroadcastsInDim S256x32 (![0, 1] : Fin 2 → Fin S256x32.rank)
  inb_S256x2048_S256x2048_0_0 : ∀ a, (![0, 0] : Fin 2 → Nat) a + S256x2048.size a ≤ S256x2048.size a
  h_S256x2048 : 0 < S256x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  reduces_S256x32_S256 : S256x32.Reduces [1] S256
  shapeCasts_S256_S256x1 : S256.ShapeCasts S256x1
  broadcasts_S256x1_S256x32 : S256x1.Broadcasts S256x32
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  dot_S256x2048_S2048x128_S256x128_1_0_0_1_n_n_wf : DotDims.WF S256x2048 S2048x128 S256x128 [1] [0] [0] [1] [] []
  dot_S256x128_S128x2048_S256x2048_1_0_0_1_n_n_wf : DotDims.WF S256x128 S128x2048 S256x2048 [1] [0] [0] [1] [] []
  dot_S256x128_S128x256_S256x256_1_0_0_1_n_n_wf : DotDims.WF S256x128 S128x256 S256x256 [1] [0] [0] [1] [] []
  dot_S256x256_S256x32_S256x32_1_0_0_1_n_n_wf : DotDims.WF S256x256 S256x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S2048x128.size a
  hwx0_7 : ∀ i : grid0.Coords, EltTy.bits .bf16 = 32 ∨ (Rect.block (s := S2048x128) S2048x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S128x2048.size a
  hwx0_9 : ∀ i : grid0.Coords, EltTy.bits .bf16 = 32 ∨ (Rect.block (s := S128x2048) S128x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x1024.size a ≤ S2048x1024.size a
  hwx0_11 : ∀ i : grid0.Coords, EltTy.bits .bf16 = 32 ∨ (Rect.block (s := S2048x1024) S2048x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x2048.size a ≤ S1024x2048.size a
  hwx0_15 : ∀ i : grid0.Coords, EltTy.bits .bf16 = 32 ∨ (Rect.block (s := S1024x2048) S1024x2048.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x2048.size a ≤ S1x2048.size a
  hwx0_16 : ∀ i : grid0.Coords, EltTy.bits .f32 = 32 ∨ (Rect.block (s := S1x2048) S1x2048.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x256.size a ≤ S128x256.size a
  hwx0_17 : ∀ i : grid0.Coords, EltTy.bits .bf16 = 32 ∨ (Rect.block (s := S128x256) S128x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x32.size a ≤ S256x32.size a
  hwx0_18 : ∀ i : grid0.Coords, EltTy.bits .bf16 = 32 ∨ (Rect.block (s := S256x32) S256x32.size (cc0_transform_18 i) (hinb0_18 i)).WholeWords (EltTy.packing .bf16)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x2048.size a ≤ S16384x2048.size a
  hwx0_19 : ∀ i : grid0.Coords, EltTy.bits .f32 = 32 ∨ (Rect.block (s := S16384x2048) S256x2048.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S256x32.size a ≤ S16384x32.size a
  hwx0_20 : ∀ i : grid0.Coords, EltTy.bits .f32 = 32 ∨ (Rect.block (s := S16384x32) S256x32.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S256x128.size a ≤ S16384x128.size a
  hwx0_21 : ∀ i : grid0.Coords, EltTy.bits .f32 = 32 ∨ (Rect.block (s := S16384x128) S256x128.size (cc0_transform_21 i) (hinb0_21 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2048x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S128x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S2048x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S1024x2048.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v16) S1x2048.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v8) S128x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v25) S256x32.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v26_0) S256x2048.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v26_1) S256x32.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v26_2) S256x128.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x1024 : Shape := ⟨2, ![2048, 1024]⟩
abbrev S1024 : Shape := ⟨1, ![1024]⟩
abbrev S1024x1024 : Shape := ⟨2, ![1024, 1024]⟩
abbrev S1024x2048 : Shape := ⟨2, ![1024, 2048]⟩
abbrev S2048 : Shape := ⟨1, ![2048]⟩
abbrev S2048x128 : Shape := ⟨2, ![2048, 128]⟩
abbrev S128 : Shape := ⟨1, ![128]⟩
abbrev S128x2048 : Shape := ⟨2, ![128, 2048]⟩
abbrev S128x256 : Shape := ⟨2, ![128, 256]⟩
abbrev S16384x1024 : Shape := ⟨2, ![16384, 1024]⟩
abbrev S1x1024 : Shape := ⟨2, ![1, 1024]⟩
abbrev S_ : Shape := ⟨0, ![]⟩
abbrev S1x2048 : Shape := ⟨2, ![1, 2048]⟩
abbrev S16384x128 : Shape := ⟨2, ![16384, 128]⟩
abbrev S1x128 : Shape := ⟨2, ![1, 128]⟩
abbrev S16384x256 : Shape := ⟨2, ![16384, 256]⟩
abbrev S16384x32x8 : Shape := ⟨3, ![16384, 32, 8]⟩
abbrev S16384x32 : Shape := ⟨2, ![16384, 32]⟩
abbrev S16384 : Shape := ⟨1, ![16384]⟩
abbrev S16384x1 : Shape := ⟨2, ![16384, 1]⟩

abbrev nBuf : Space → Nat
  | .hbm => 84
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S2048, .f32⟩
  | .hbm, ⟨7, _⟩ => ⟨S2048x128, .f32⟩
  | .hbm, ⟨8, _⟩ => ⟨S128, .f32⟩
  | .hbm, ⟨9, _⟩ => ⟨S128x2048, .f32⟩
  | .hbm, ⟨10, _⟩ => ⟨S2048, .f32⟩
  | .hbm, ⟨11, _⟩ => ⟨S2048x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x2048, .f32⟩
  | .hbm, ⟨16, _⟩ => ⟨S2048, .f32⟩
  | .hbm, ⟨17, _⟩ => ⟨S128x256, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x128, .f32⟩
  | .hbm, ⟨40, _⟩ => ⟨S1x128, .f32⟩
  | .hbm, ⟨41, _⟩ => ⟨S16384x128, .f32⟩
  | .hbm, ⟨42, _⟩ => ⟨S16384x128, .f32⟩
  | .hbm, ⟨43, _⟩ => ⟨S16384x2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S16384x2048, .f32⟩
  | .hbm, ⟨49, _⟩ => ⟨S16384x2048, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S16384x2048, .f32⟩
  | .hbm, ⟨65, _⟩ => ⟨S1x2048, .f32⟩
  | .hbm, ⟨66, _⟩ => ⟨S16384x2048, .f32⟩
  | .hbm, ⟨67, _⟩ => ⟨S16384x2048, .f32⟩
  | .hbm, ⟨68, _⟩ => ⟨S16384x256, .f32⟩
  | .hbm, ⟨69, _⟩ => ⟨S16384x32x8, .f32⟩
  | .hbm, ⟨70, _⟩ => ⟨S16384x32x8, .f32⟩
  | .hbm, ⟨71, _⟩ => ⟨S_, .f32⟩
  | .hbm, ⟨72, _⟩ => ⟨S16384x32, .f32⟩
  | .hbm, ⟨73, _⟩ => ⟨S_, .f32⟩
  | .hbm, ⟨74, _⟩ => ⟨S16384x32, .f32⟩
  | .hbm, ⟨75, _⟩ => ⟨S16384x32, .f32⟩
  | .hbm, ⟨76, _⟩ => ⟨S_, .f32⟩
  | .hbm, ⟨77, _⟩ => ⟨S16384x32, .f32⟩
  | .hbm, ⟨78, _⟩ => ⟨S16384x32, .f32⟩
  | .hbm, ⟨79, _⟩ => ⟨S_, .f32⟩
  | .hbm, ⟨80, _⟩ => ⟨S16384, .f32⟩
  | .hbm, ⟨81, _⟩ => ⟨S16384x1, .f32⟩
  | .hbm, ⟨82, _⟩ => ⟨S16384x32, .f32⟩
  | .hbm, ⟨83, _⟩ => ⟨S16384x32, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call2_cst : Ref sig .tc := ⟨.hbm, 36, rfl⟩
abbrev main_call2_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call3_cst : Ref sig .tc := ⟨.hbm, 47, rfl⟩
abbrev main_call3_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_call4_cst : Ref sig .tc := ⟨.hbm, 54, rfl⟩
abbrev main_call4_v0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call5_cst : Ref sig .tc := ⟨.hbm, 61, rfl⟩
abbrev main_call5_v0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst : Ref sig .tc := ⟨.hbm, 71, rfl⟩
abbrev main_v41 : Ref sig .tc := ⟨.hbm, 72, rfl⟩
abbrev main_cst_0 : Ref sig .tc := ⟨.hbm, 73, rfl⟩
abbrev main_v42 : Ref sig .tc := ⟨.hbm, 74, rfl⟩
abbrev main_v43 : Ref sig .tc := ⟨.hbm, 75, rfl⟩
abbrev main_cst_1 : Ref sig .tc := ⟨.hbm, 76, rfl⟩
abbrev main_v44 : Ref sig .tc := ⟨.hbm, 77, rfl⟩
abbrev main_v45 : Ref sig .tc := ⟨.hbm, 78, rfl⟩
abbrev main_cst_2 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  shapeCasts_S16384x256_S16384x32x8 : S16384x256.ShapeCasts S16384x32x8
  reducesTo_S16384x32x8_S16384x32_d2 : S16384x32x8.ReducesTo [2] S16384x32
  h_S_ : 0 < S_.numel
  bcast_S_S16384x32 : S_.BroadcastsInDim S16384x32 (![] : Fin 0 → Fin S16384x32.rank)
  reducesTo_S16384x32_S16384_d1 : S16384x32.ReducesTo [1] S16384
  bcast_S16384_S16384x1_0 : S16384.BroadcastsInDim S16384x1 (![0] : Fin 1 → Fin S16384x1.rank)
  bcast_S16384x1_S16384x32_0_1 : S16384x1.BroadcastsInDim S16384x32 (![0, 1] : Fin 2 → Fin S16384x32.rank)
  dot_S16384x2048_S2048x1024_S16384x1024_1_0_0_1_n_n_wf : DotDims.WF S16384x2048 S2048x1024 S16384x1024 [1] [0] [0] [1] [] []
  dot_S16384x1024_S1024x1024_S16384x1024_1_0_0_1_n_n_wf : DotDims.WF S16384x1024 S1024x1024 S16384x1024 [1] [0] [0] [1] [] []
  dot_S16384x1024_S1024x2048_S16384x2048_1_0_0_1_n_n_wf : DotDims.WF S16384x1024 S1024x2048 S16384x2048 [1] [0] [0] [1] [] []
  dot_S16384x2048_S2048x128_S16384x128_1_0_0_1_n_n_wf : DotDims.WF S16384x2048 S2048x128 S16384x128 [1] [0] [0] [1] [] []
  dot_S16384x128_S128x2048_S16384x2048_1_0_0_1_n_n_wf : DotDims.WF S16384x128 S128x2048 S16384x2048 [1] [0] [0] [1] [] []
  dot_S16384x128_S128x256_S16384x256_1_0_0_1_n_n_wf : DotDims.WF S16384x128 S128x256 S16384x256 [1] [0] [0] [1] [] []

variable [Facts₀]

def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x2048_S2048x128_S16384x128_1_0_0_1_n_n : DotDims S16384x2048 S2048x128 S16384x128 where
  lhsContracting := [1]
  rhsContracting := [0]
  lhsNonContracting := [0]
  rhsNonContracting := [1]
  lhsBatch := []
  rhsBatch := []
  wf := dot_S16384x2048_S2048x128_S16384x128_1_0_0_1_n_n_wf
def dot_S16384x128_S128x2048_S16384x2048_1_0_0_1_n_n : DotDims S16384x128 S128x2048 S16384x2048 where
  lhsContracting := [1]
  rhsContracting := [0]
  lhsNonContracting := [0]
  rhsNonContracting := [1]
  lhsBatch := []
  rhsBatch := []
  wf := dot_S16384x128_S128x2048_S16384x2048_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf

class Facts : Prop extends Facts₀ where

variable [Facts]
-- ==== Proof.LibKeepdims.lean ====
/-
  Keepdims columns read at an index given by coordinates.  A sum over the last axis kept as a unit axis makes
  an `[a]` vector into an `[a, 1]` column, and a column is broadcast along its unit axis to `[a, b]`.
  Both are read here at an index written with `ix2`: the cast keeps row-major positions (position `i` of
  the vector is position `i · 1 + 0` of the column), and a broadcast reads coordinate `0` on the operand's
  unit axis and the result's own coordinate elsewhere.
-/
import Idealize.ShloMosaic.Lib.ValueLayout

namespace Cert.LibKeepdims

open Idealize.ShloMosaic Idealize.ShloMosaic.ValueIdx

variable {α : Type}

/-- An `[a]` vector cast to an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibFinSumPair.lean ====
/-
  Regrouping a finite sum by pairs.

  In any commutative additive monoid, summing `f` over the positions `a · n + b` for `a < m` and `b < n` is summing it
  over every position below `m · n`, each once: the pair `(a, b)` and the position `a · n + b` correspond one to one
  (division with remainder by `n`). This is the step between a sum taken block by block, row by row or lane by lane and
  the same sum taken over a flattened (row-major) axis; apply it once per pair of axes merged.
-/
import Mathlib.Algebra.BigOperators.Fin
import Mathlib.Logic.Equiv.Fin.Basic

namespace Cert.Lib

/-- Two nested sums over `Fin m` and `Fin n` are one sum over `Fin N` with `N = m · n`, the pair `(a, b)` being position
    `a · n + b`. The size `N` is taken with an equation so that a literal product need not be spelled `m * n`. -/
theorem sum_pair {M : Type*} [AddCommMonoid M] (m n N : ℕ) (hN : m * n = N) (f : ℕ → M) :
    ∑ a : Fin m, ∑ b : Fin n, f (a.val * n + b.val) = ∑ k : Fin N, f k.val := by
  subst hN
  rw [← Fintype.sum_prod_type']
  refine Fintype.sum_equiv finProdFinEquiv _ _ fun x => ?_
  rw [finProdFinEquiv_apply_val, Nat.add_comm, Nat.mul_comm]

end Cert.Lib
-- ==== Proof.LibRowwise.lean ====
/-
  Matrices read row by row.

  A dense layer `x ↦ x · W + b`, a rectifier, a quotient by a row's sum: each acts on every row of its input by
  itself.  When a matrix with many rows is cut into bands of rows and the same chain of such operations is applied to
  one band, the rows that come out are the rows the chain gives on the whole matrix.  To say so once, every operation
  is read here through `rowOf`, the row of a matrix as a function of the column, for any number of rows:

  * a product with the zero accumulator, and the host's product, are the row's dot products with the right operand
    (`rowDot`);
  * a one-row matrix laid under every row, and a vector laid along every row, are that row or vector;
  * the pointwise operations act entry by entry;
  * a row's sum, kept as a column and laid across the row again, is the row's sum at every column.

  Extended reals throughout: the statements use only that sums and products of extended reals are what the
  operations compute there, never a law that needs a finite value.
-/
import Idealize.ShloMosaic.Lib.StackMember
import Idealize.ShloMosaic.Lib.KernelVsHost
import proofs.«122460_j9921374454086_1_alg».proof.Proof.LibKeepdims
import proofs.«122460_j9921374454086_1_alg».proof.Proof.LibFinSumPair

noncomputable section

open scoped BigOperators

namespace Cert.LibRowwise

open Idealize.ShloMosaic Idealize.ShloMosaic.ValueIdx Idealize.ShloMosaic.StackMember

variable {α : Type}

/-- Row `r` of a matrix, as a function of the column. -/
def rowOf {M K : ℕ} (A : (⟨2, ![M, K]⟩ : Shape).Idx → α) (r : Fin M) : Fin K → α := fun k => A (ix2 r k)

theorem rowOf_apply {M K : ℕ} (A : (⟨2, ![M, K]⟩ : Shape).Idx → α) (r : Fin M) (k : Fin K) : rowOf A r k = A (ix2 r k) := rfl

/-- Two matrices with the same rows are equal. -/
theorem ext_rows {M K : ℕ} {A B : (⟨2, ![M, K]⟩ : Shape).Idx → α} (h : ∀ r, rowOf A r = rowOf B r) : A = B := by
  funext i
  rw [eq_ix2 i]
  exact congrFun (h (i 0)) (i 1)

/-- The dot products of a row with the columns of a matrix. -/
def rowDot {K N : ℕ} (a : Fin K → EReal) (W : (⟨2, ![K, N]⟩ : Shape).Idx → EReal) : Fin N → EReal :=
  fun j => ∑ k : Fin K, a k * W (ix2 k j)

/-- A row of the host's product is the row's dot products with the right operand. -/
theorem rowOf_dotGeneral {M K N : ℕ} {φ₁ φ₂ : FTy} (prec : Option ContractPrecision)
    (A : FVec Ideal ⟨2, ![M, K]⟩ φ₁) (W : FVec Ideal ⟨2, ![K, N]⟩ φ₂) (r : Fin M) :
    rowOf (Host.dotGeneral (DotDims.plain M K N) prec A W) r = rowDot (rowOf A r) W :=
  funext fun j => dotGeneral_plain_apply prec A W r j

/-- A row of a matrix product accumulated into zero is the same. -/
theorem rowOf_matmul_zero {M K N : ℕ} {φ₁ φ₂ : FTy} (prec : Option ContractPrecision)
    (A : FVec Ideal ⟨2, ![M, K]⟩ φ₁) (W : FVec Ideal ⟨2, ![K, N]⟩ φ₂) (r : Fin M) :
    rowOf (matmul (DotDims.plain M K N) prec A W (constant ⟨2, ![M, N]⟩ .f32 0x00000000#32)) r = rowDot (rowOf A r) W := by
  rw [matmul_zero_eq_dotGeneral]
  exact rowOf_dotGeneral prec A W r

/-! ## A row or a vector laid under every row -/

/-- A one-row matrix broadcast down the rows: every row is that row. -/
theorem rowOf_broadcastTo_oneRow {M N : ℕ} (b : (⟨2, ![1, N]⟩ : Shape).Idx → α)
    (h1 : (⟨2, ![1, N]⟩ : Shape).ShapeCasts ⟨2, ![1, N]⟩) (hb : (⟨2, ![1, N]⟩ : Shape).Broadcasts ⟨2, ![M, N]⟩) (r : Fin M) :
    rowOf (broadcastTo ⟨2, ![M, N]⟩ (shapeCast ⟨2, ![1, N]⟩ b h1) hb) r = rowOf b 0 := by
  rw [shapeCast_self]
  funext j
  refine broadcastTo_apply b hb (ix2 r j) (ix2 (0 : Fin 1) j) ?_
  intro a
  match a with
  | ⟨0, _⟩ => rfl
  | ⟨1, _⟩ =>
    show j.val = if N = 1 then 0 else j.val
    split
    · have := j.isLt; omega
    · rfl

/-- A vector stored as a one-row matrix: the row is the vector. -/
theorem rowOf_shapeCast_vec {N : ℕ} (b : (⟨1, ![N]⟩ : Shape).Idx → α) (h : (⟨1, ![N]⟩ : Shape).ShapeCasts ⟨2, ![1, N]⟩) :
    rowOf (shapeCast ⟨2, ![1, N]⟩ b h) (0 : Fin 1) = fun j => b (ix1 j) := by
  funext j
  refine shapeCast_apply b h (ix2 (0 : Fin 1) j) (ix1 j) ?_
  rw [Shape.rowMajor_val_two, Shape.rowMajor_val_one]
  show j.val = 0 * N + j.val
  omega

/-- A vector laid along axis 1 of a one-row matrix, then down the rows: every row is the vector. -/
theorem rowOf_broadcastInDim_vec {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rowOf (broadcastInDim ⟨2, ![M, N]⟩ ![0, 1] h2 (broadcastInDim ⟨2, ![1, N]⟩ ![1] h1 b)) r = fun j => b (ix1 j) := by
  funext j
  refine (broadcastInDim_oneRow_apply h2 _ r j).trans ?_
  refine broadcastInDim_apply ![1] h1 b (ix2 (0 : Fin 1) j) (ix1 j) ?_
  intro a
  match a with
  | ⟨0, _⟩ =>
    show j.val = if N = 1 then 0 else j.val
    split
    · have := j.isLt; omega
    · rfl

/-- A scalar laid everywhere by the host. -/
theorem rowOf_broadcastInDim_scalar {M N : ℕ} (x : (⟨0, ![]⟩ : Shape).Idx → α)
    (h : (⟨0, ![]⟩ : Shape).BroadcastsInDim ⟨2, ![M, N]⟩ ![]) (r : Fin M) :
    rowOf (broadcastInDim ⟨2, ![M, N]⟩ ![] h x) r = fun _ => x ix0 := by
  funext j
  exact broadcastInDim_apply ![] h x (ix2 r j) ix0 (fun a => a.elim0)

/-- A scalar splat. -/
theorem rowOf_broadcast {M N : ℕ} (x : α) (r : Fin M) : rowOf (broadcast ⟨2, ![M, N]⟩ x) r = fun _ => x := rfl

/-! ## Pointwise operations, entry by entry -/

section Pointwise
variable {M N : ℕ} {φ : FTy}

theorem rowOf_addf (X Y : FVec Ideal ⟨2, ![M, N]⟩ φ) (r : Fin M) :
    rowOf (addf X Y) r = fun j => rowOf X r j + rowOf Y r j := rfl
theorem rowOf_mulf (X Y : FVec Ideal ⟨2, ![M, N]⟩ φ) (r : Fin M) :
    rowOf (mulf X Y) r = fun j => rowOf X r j * rowOf Y r j := rfl
theorem rowOf_maximumf (X Y : FVec Ideal ⟨2, ![M, N]⟩ φ) (r : Fin M) :
    rowOf (maximumf X Y) r = fun j => max (rowOf X r j) (rowOf Y r j) := rfl
theorem rowOf_divf (X Y : FVec Ideal ⟨2, ![M, N]⟩ φ) (r : Fin M) :
    rowOf (divf X Y) r = fun j => Ideal.div (rowOf X r j) (rowOf Y r j) := rfl
theorem rowOf_hostDivf (X Y : FVec Ideal ⟨2, ![M, N]⟩ φ) (r : Fin M) :
    rowOf (Host.divf X Y) r = fun j => Ideal.div (rowOf X r j) (rowOf Y r j) := rfl
theorem rowOf_truncf {ψ : FTy} (X : FVec Ideal ⟨2, ![M, N]⟩ φ) (h : ψ.bits < φ.bits) (r : Fin M) :
    rowOf (truncf ψ X h : FVec Ideal ⟨2, ![M, N]⟩ ψ) r = rowOf X r := rfl

end Pointwise

/-! ## A row's sum, kept as a column and laid across the row -/

/-- The kernel's way: a sum over the columns into a vector of row sums, the vector cast to a column, the column
    broadcast across the columns.  Every entry of row `r` is the sum of row `r`. -/
theorem rowOf_rowSum_kernel {M N : ℕ} {φ : FTy} (Y : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩) (r : Fin M) :
    rowOf (broadcastTo ⟨2, ![M, N]⟩ (shapeCast ⟨2, ![M, 1]⟩ (multiReduction .add [1] ⟨1, ![M]⟩ Y acc h hφ hacc) hc) hb) r
      = fun _ => ∑ c : Fin N, rowOf Y r c := by
  funext j
  refine (Cert.LibKeepdims.broadcastTo_a1_ab_apply _ hb r j).trans ?_
  refine (Cert.LibKeepdims.shapeCast_a_a1_apply _ hc r 0).trans ?_
  refine (Ideal.multiReduction_add_single Y acc h hφ hacc (ix1 r)).trans ?_
  refine Finset.sum_congr rfl fun c _ => ?_
  exact congrArg Y (funext fun a => Fin.ext (by match a with | ⟨0, _⟩ => rfl | ⟨1, _⟩ => rfl))

/-- The host's way: a sum over the columns from an initial value, the vector of row sums laid along axis 0 of a
    column, the column laid across the columns.  Every entry of row `r` is the initial value plus the sum of row `r`. -/
theorem rowOf_rowSum_host {M N : ℕ} {φ : FTy} (Y : FVec Ideal ⟨2, ![M, N]⟩ φ) (init : (⟨0, ![]⟩ : Shape).Idx → Ideal φ)
    (h' : (⟨2, ![M, N]⟩ : Shape).ReducesTo [1] ⟨1, ![M]⟩) (h : (⟨2, ![M, N]⟩ : Shape).Reduces [1] ⟨1, ![M]⟩)
    (hu : 0 < (⟨0, ![]⟩ : Shape).numel)
    (h1 : (⟨1, ![M]⟩ : Shape).BroadcastsInDim ⟨2, ![M, 1]⟩ ![0])
    (h2 : (⟨2, ![M, 1]⟩ : Shape).BroadcastsInDim ⟨2, ![M, N]⟩ ![0, 1]) (r : Fin M) :
    rowOf (broadcastInDim ⟨2, ![M, N]⟩ ![0, 1] h2 (broadcastInDim ⟨2, ![M, 1]⟩ ![0] h1 (Host.reduceAdd Y init h' hu))) r
      = fun _ => init ix0 + ∑ c : Fin N, rowOf Y r c := by
  funext j
  have e2 := broadcastInDim_apply ![0, 1] h2 (broadcastInDim ⟨2, ![M, 1]⟩ ![0] h1 (Host.reduceAdd Y init h' hu))
    (ix2 r j) (ix2 r (0 : Fin 1)) (fun a => by
      match a with
      | ⟨0, _⟩ =>
        show r.val = if M = 1 then 0 else r.val
        split
        · have := r.isLt; omega
        · rfl
      | ⟨1, _⟩ => rfl)
  have e1 := broadcastInDim_apply ![0] h1 (Host.reduceAdd Y init h' hu) (ix2 r (0 : Fin 1)) (ix1 r) (fun a => by
      match a with
      | ⟨0, _⟩ =>
        show r.val = if M = 1 then 0 else r.val
        split
        · have := r.isLt; omega
        · rfl)
  refine (e2.trans e1).trans ?_
  show Ideal.hostReduceAdd h' Y (init (Shape.Idx.first hu)) (ix1 r) = _
  rw [Ideal.hostReduceAdd_single h' h, eq_ix0 (Shape.Idx.first hu)]
  refine congrArg (init ix0 + ·) (Finset.sum_congr rfl fun c _ => ?_)
  exact congrArg Y (funext fun a => Fin.ext (by match a with | ⟨0, _⟩ => rfl | ⟨1, _⟩ => rfl))

/-! ## A dense layer and the rectifier, on one row -/

/-- A vector as a function of its one coordinate. -/
def vecRow {N : ℕ} (b : (⟨1, ![N]⟩ : Shape).Idx → EReal) : Fin N → EReal := fun j => b (ix1 j)

/-- A dense layer on one row: `a · W + b`. -/
def dense {K N : ℕ} (a : Fin K → EReal) (W : (⟨2, ![K, N]⟩ : Shape).Idx → EReal) (b : Fin N → EReal) : Fin N → EReal :=
  fun j => rowDot a W j + b j

/-- The rectifier on one row, against the printed word of `0.0`. -/
def relu {N : ℕ} (v : Fin N → EReal) : Fin N → EReal := fun j => max (v j) (Ideal.ofBits .f32 0x00000000#32)

/-- The host's dense layer: a product, plus the bias vector laid under every row. -/
theorem rowOf_host_dense {M K N : ℕ} (X : FVec Ideal ⟨2, ![M, K]⟩ .f32) (W : FVec Ideal ⟨2, ![K, N]⟩ .f32)
    (b : FVec Ideal ⟨1, ![N]⟩ .f32) (prec : Option ContractPrecision)
    (h1 : (⟨1, ![N]⟩ : Shape).BroadcastsInDim ⟨2, ![1, N]⟩ ![1])
    (h2 : (⟨2, ![1, N]⟩ : Shape).BroadcastsInDim ⟨2, ![M, N]⟩ ![0, 1]) (n : Fin M) :
    rowOf (addf (Host.dotGeneral (DotDims.plain M K N) prec X W)
      (broadcastInDim ⟨2, ![M, N]⟩ ![0, 1] h2 (broadcastInDim ⟨2, ![1, N]⟩ ![1] h1 b))) n
      = dense (rowOf X n) W (vecRow b) := by
  rw [rowOf_addf, rowOf_dotGeneral, rowOf_broadcastInDim_vec]
  rfl

/-- The host's rectifier: the maximum with a zero laid everywhere. -/
theorem rowOf_host_relu {M N : ℕ} (Y : FVec Ideal ⟨2, ![M, N]⟩ .f32)
    (h : (⟨0, ![]⟩ : Shape).BroadcastsInDim ⟨2, ![M, N]⟩ ![]) (n : Fin M) :
    rowOf (maximumf Y (broadcastInDim ⟨2, ![M, N]⟩ ![] h (constant (F := Ideal) ⟨0, ![]⟩ .f32 0x00000000#32))) n
      = relu (rowOf Y n) := by
  rw [rowOf_maximumf, rowOf_broadcastInDim_scalar]
  rfl

/-- The kernel's dense layer: a product into the zero accumulator of the (already narrowed) input with the loaded
    weights, plus the loaded one-row bias broadcast down the rows. -/
theorem rowOf_kernel_dense {M K N : ℕ} {φ₁ φ₂ : FTy} (A : FVec Ideal ⟨2, ![M, K]⟩ φ₁) (W : FVec Ideal ⟨2, ![K, N]⟩ φ₂)
    (b : FVec Ideal ⟨2, ![1, N]⟩ .f32) (prec : Option ContractPrecision)
    (hs : (⟨2, ![K, N]⟩ : Shape).ShapeCasts ⟨2, ![K, N]⟩)
    (h1 : (⟨2, ![1, N]⟩ : Shape).ShapeCasts ⟨2, ![1, N]⟩) (hb : (⟨2, ![1, N]⟩ : Shape).Broadcasts ⟨2, ![M, N]⟩) (r : Fin M) :
    rowOf (addf (matmul (DotDims.plain M K N) prec A (shapeCast ⟨2, ![K, N]⟩ W hs) (constant ⟨2, ![M, N]⟩ .f32 0x00000000#32))
      (broadcastTo ⟨2, ![M, N]⟩ (shapeCast ⟨2, ![1, N]⟩ b h1) hb)) r
      = dense (rowOf A r) W (rowOf b 0) := by
  rw [rowOf_addf, shapeCast_self W hs, rowOf_matmul_zero, rowOf_broadcastTo_oneRow]
  rfl

/-- The kernel's rectifier: the maximum with a splat zero (a narrowing afterwards changes nothing). -/
theorem rowOf_kernel_relu {M N : ℕ} (Y : FVec Ideal ⟨2, ![M, N]⟩ .f32) (r : Fin M) :
    rowOf (maximumf Y (broadcast ⟨2, ![M, N]⟩ (Scalar.ofBits (F := Ideal) .f32 0x00000000#32))) r = relu (rowOf Y r) := rfl

/-- The same, narrowed afterwards. -/
theorem rowOf_kernel_relu_trunc {M N : ℕ} {ψ : FTy} (Y : FVec Ideal ⟨2, ![M, N]⟩ .f32) (h : ψ.bits < FTy.f32.bits) (r : Fin M) :
    rowOf (truncf ψ (maximumf Y (broadcast ⟨2, ![M, N]⟩ (Scalar.ofBits (F := Ideal) .f32 0x00000000#32))) h : FVec Ideal ⟨2, ![M, N]⟩ ψ) r
      = relu (rowOf Y r) := rfl

/-- The kernel's product with loaded weights, without a bias. -/
theorem rowOf_kernel_dot {M K N : ℕ} {φ₁ φ₂ : FTy} (A : FVec Ideal ⟨2, ![M, K]⟩ φ₁) (W : FVec Ideal ⟨2, ![K, N]⟩ φ₂)
    (prec : Option ContractPrecision) (hs : (⟨2, ![K, N]⟩ : Shape).ShapeCasts ⟨2, ![K, N]⟩) (r : Fin M) :
    rowOf (matmul (DotDims.plain M K N) prec A (shapeCast ⟨2, ![K, N]⟩ W hs) (constant ⟨2, ![M, N]⟩ .f32 0x00000000#32)) r
      = rowDot (rowOf A r) W := by
  rw [shapeCast_self W hs, rowOf_matmul_zero]

/-! ## Shifting, scaling, and dividing a row by its sum -/

/-- `(S + a) / b`, entry by entry. -/
def shiftScale {N : ℕ} (a b : EReal) (S : Fin N → EReal) : Fin N → EReal := fun g => Ideal.div (S g + a) b

/-- A row divided by its own sum. -/
def overSum {N : ℕ} (u : Fin N → EReal) : Fin N → EReal := fun g => Ideal.div (u g) (∑ g' : Fin N, u g')

/-- The kernel's shift and scale by two splat scalars. -/
theorem rowOf_kernel_shiftScale {M N : ℕ} (S : FVec Ideal ⟨2, ![M, N]⟩ .f32) (a b : Ideal .f32) (r : Fin M) :
    rowOf (divf (addf S (broadcast ⟨2, ![M, N]⟩ a)) (broadcast ⟨2, ![M, N]⟩ b)) r = shiftScale a b (rowOf S r) := rfl

/-- The kernel's division of every row by its sum. -/
theorem rowOf_kernel_overSum {M N : ℕ} (U : FVec Ideal ⟨2, ![M, N]⟩ .f32) (acc : BitVec FTy.f32.bits)
    (h : (⟨2, ![M, N]⟩ : Shape).Reduces [1] ⟨1, ![M]⟩) (hφ : FKind.Formats .f32) (hacc : acc = FKind.add.neutral .f32 hφ)
    (hc : (⟨1, ![M]⟩ : Shape).ShapeCasts ⟨2, ![M, 1]⟩) (hb : (⟨2, ![M, 1]⟩ : Shape).Broadcasts ⟨2, ![M, N]⟩) (r : Fin M) :
    rowOf (divf U (broadcastTo ⟨2, ![M, N]⟩ (shapeCast ⟨2, ![M, 1]⟩ (multiReduction .add [1] ⟨1, ![M]⟩ U acc h hφ hacc) hc) hb)) r
      = overSum (rowOf U r) := by
  rw [rowOf_divf, rowOf_rowSum_kernel]
  rfl

/-- A narrowed square, entry by entry. -/
theorem rowOf_kernel_sq {M N : ℕ} {ψ : FTy} (P : FVec Ideal ⟨2, ![M, N]⟩ .f32) (h : ψ.bits < FTy.f32.bits) (r : Fin M) :
    rowOf (truncf ψ (mulf P P) h : FVec Ideal ⟨2, ![M, N]⟩ ψ) r = fun j => rowOf P r j * rowOf P r j := rfl

/-! ## Columns in groups -/

/-- A matrix whose `N = G · W` columns are regrouped as `G` groups of `W`: entry `(n, g, k)` is entry
    `(n, g · W + k)`. -/
theorem shapeCast_groups_apply {M G W N : ℕ} (P : (⟨2, ![M, N]⟩ : Shape).Idx → α)
    (h : (⟨2, ![M, N]⟩ : Shape).ShapeCasts ⟨3, ![M, G, W]⟩) (hN : G * W = N) (n : Fin M) (g : Fin G) (k : Fin W) (j : Fin N)
    (hj : j.val = g.val * W + k.val) :
    shapeCast ⟨3, ![M, G, W]⟩ P h (ix3 n g k) = P (ix2 n j) := by
  refine shapeCast_apply P h _ _ ?_
  rw [Shape.rowMajor_val_two, Shape.rowMajor_val_three]
  show n.val * N + j.val = (n.val * G + g.val) * W + k.val
  subst hN
  rw [hj, Nat.add_mul, Nat.mul_assoc, Nat.add_assoc]

/-- The host's sum over the last axis of a rank-3 array, read by rows: entry `g` of row `r` is the initial value
    plus the sum of group `g`. -/
theorem rowOf_groupSum_host {M G W : ℕ} {φ : FTy} (Q : FVec Ideal ⟨3, ![M, G, W]⟩ φ) (init : (⟨0, ![]⟩ : Shape).Idx → Ideal φ)
    (h' : (⟨3, ![M, G, W]⟩ : Shape).ReducesTo [2] ⟨2, ![M, G]⟩) (h : (⟨3, ![M, G, W]⟩ : Shape).Reduces [2] ⟨2, ![M, G]⟩)
    (hu : 0 < (⟨0, ![]⟩ : Shape).numel) (r : Fin M) :
    rowOf (Host.reduceAdd Q init h' hu) r = fun g => init ix0 + ∑ k : Fin W, Q (ix3 r g k) := by
  funext g
  show Ideal.hostReduceAdd h' Q (init (Shape.Idx.first hu)) (ix2 r g) = _
  rw [Ideal.hostReduceAdd_single h' h, eq_ix0 (Shape.Idx.first hu)]
  refine congrArg (init ix0 + ·) (Finset.sum_congr rfl fun k _ => ?_)
  exact congrArg Q (funext fun a => Fin.ext (by match a with | ⟨0, _⟩ => rfl | ⟨1, _⟩ => rfl | ⟨2, _⟩ => rfl))

/-- A sum of `N = G · W` terms against a selector that is `1` on group `c` and `0` on the others is the sum of
    group `c`'s terms.  (Only `x · 1 = x` and `x · 0 = 0`, which hold for every extended real.) -/
theorem sum_mul_selector {G W N : ℕ} (hN : G * W = N) (f sel : ℕ → EReal) (c : Fin G)
    (hsel : ∀ (a : Fin G) (b : Fin W), sel (a.val * W + b.val) = if a = c then 1 else 0) :
    ∑ j : Fin N, f j.val * sel j.val = ∑ k : Fin W, f (c.val * W + k.val) := by
  rw [← Cert.Lib.sum_pair G W N hN (fun j => f j * sel j), Finset.sum_eq_single c]
  · refine Finset.sum_congr rfl fun b _ => ?_
    rw [hsel c b, if_pos rfl, mul_one]
  · intro a _ hac
    refine Finset.sum_eq_zero fun b _ => ?_
    rw [hsel a b, if_neg hac, mul_zero]
  · intro hc
    exact absurd (Finset.mem_univ c) hc

/-- The same over `Fin`: `pos a b` names position `a · W + b`. -/
theorem sum_mul_selector_fin {G W N : ℕ} (hN : G * W = N) (f sel : Fin N → EReal) (c : Fin G) (pos : Fin G → Fin W → Fin N)
    (hpos : ∀ a b, (pos a b).val = a.val * W + b.val) (hsel : ∀ a b, sel (pos a b) = if a = c then 1 else 0) :
    ∑ j : Fin N, f j * sel j = ∑ k : Fin W, f (pos c k) := by
  have hlt : ∀ (a : Fin G) (b : Fin W), a.val * W + b.val < N := fun a b => (hpos a b) ▸ (pos a b).isLt
  have key := Cert.Lib.sum_pair G W N hN (fun j => if h : j < N then f ⟨j, h⟩ * sel ⟨j, h⟩ else 0)
  have e1 : ∑ k : Fin N, (fun j => if h : j < N then f ⟨j, h⟩ * sel ⟨j, h⟩ else 0) k.val = ∑ j : Fin N, f j * sel j :=
    Finset.sum_congr rfl fun k _ => dif_pos k.isLt
  rw [← e1, ← key, Finset.sum_eq_single c]
  · refine Finset.sum_congr rfl fun b _ => ?_
    have e : (⟨c.val * W + b.val, hlt c b⟩ : Fin N) = pos c b := Fin.ext (hpos c b).symm
    show (if h : c.val * W + b.val < N then f ⟨_, h⟩ * sel ⟨_, h⟩ else 0) = _
    rw [dif_pos (hlt c b), e, hsel c b, if_pos rfl, mul_one]
  · intro a _ hac
    refine Finset.sum_eq_zero fun b _ => ?_
    have e : (⟨a.val * W + b.val, hlt a b⟩ : Fin N) = pos a b := Fin.ext (hpos a b).symm
    show (if h : a.val * W + b.val < N then f ⟨_, h⟩ * sel ⟨_, h⟩ else 0) = _
    rw [dif_pos (hlt a b), e, hsel a b, if_neg hac, mul_zero]
  · intro hc
    exact absurd (Finset.mem_univ c) hc

end Cert.LibRowwise

end
-- ==== Proof.Spec.lean ====
/-
  What the three results are, one row at a time.

  Every row `x` of the input goes through the same functions, and no other row enters:

  * `encode`: three rectified dense layers and a linear one, `x ↦ (relu (relu (relu (x·W₁ + b₁)·W₂ + b₂)·W₃ + b₃))·W_z + b_z`,
    the code `z` of the row (128 entries);
  * `decode`: the mirror chain from `z` back to 2048 entries, the reconstruction;
  * `affinity`: `z·D` has 256 entries in 32 groups of 8; `groupSq` is each group's sum of squares, and `share` turns
    the 32 sums `S` into `u = (S + 40)/48` divided by the sum of the `u`'s.

  The two literals `40` and `48` and the rectifier's `0` are kept as the words both programs print; nothing here
  needs their values.  Sums and products are the extended reals'.
-/
import proofs.«122460_j9921374454086_1_alg».proof.Proof.LibRowwise

noncomputable section

open scoped BigOperators

namespace Cert.Spec

open Idealize.ShloMosaic Idealize.ShloMosaic.ValueIdx Cert.LibRowwise

/-- A `K × N` matrix of extended reals. -/
abbrev Mat (K N : ℕ) : Type := (⟨2, ![K, N]⟩ : Shape).Idx → EReal

/-- The matrix whose row `n` is `f n`. -/
def ofRows {M N : ℕ} (f : Fin M → Fin N → EReal) : Mat M N := fun i => f (i 0) (i 1)

theorem rowOf_ofRows {M N : ℕ} (f : Fin M → Fin N → EReal) (n : Fin M) : rowOf (ofRows f) n = f n := rfl

/-- A matrix with rows `f` is `ofRows f`. -/
theorem eq_ofRows {M N : ℕ} {A : Mat M N} {f : Fin M → Fin N → EReal} (h : ∀ n, rowOf A n = f n) : A = ofRows f :=
  ext_rows fun n => (h n).trans (rowOf_ofRows f n).symm

/-- `40.0`, as printed. -/
abbrev lit40 : EReal := Ideal.ofBits .f32 0x42200000#32
/-- `48.0`, as printed. -/
abbrev lit48 : EReal := Ideal.ofBits .f32 0x42400000#32

/-- The weights and biases, the biases as functions of the column. -/
structure Params where
  W1 : Mat 2048 1024
  b1 : Fin 1024 → EReal
  W2 : Mat 1024 1024
  b2 : Fin 1024 → EReal
  W3 : Mat 1024 2048
  b3 : Fin 2048 → EReal
  Wz : Mat 2048 128
  bz : Fin 128 → EReal
  Wd1 : Mat 128 2048
  bd1 : Fin 2048 → EReal
  Wd2 : Mat 2048 1024
  bd2 : Fin 1024 → EReal
  Wd3 : Mat 1024 1024
  bd3 : Fin 1024 → EReal
  Wx : Mat 1024 2048
  bx : Fin 2048 → EReal
  D : Mat 128 256

/-- The parameters from the seventeen argument arrays: the matrices as they are, each bias vector as a function of
    the column. -/
def paramsOf (W1 : Mat 2048 1024) (b1 : (⟨1, ![1024]⟩ : Shape).Idx → EReal) (W2 : Mat 1024 1024) (b2 : (⟨1, ![1024]⟩ : Shape).Idx → EReal)
    (W3 : Mat 1024 2048) (b3 : (⟨1, ![2048]⟩ : Shape).Idx → EReal) (Wz : Mat 2048 128) (bz : (⟨1, ![128]⟩ : Shape).Idx → EReal)
    (Wd1 : Mat 128 2048) (bd1 : (⟨1, ![2048]⟩ : Shape).Idx → EReal) (Wd2 : Mat 2048 1024) (bd2 : (⟨1, ![1024]⟩ : Shape).Idx → EReal)
    (Wd3 : Mat 1024 1024) (bd3 : (⟨1, ![1024]⟩ : Shape).Idx → EReal) (Wx : Mat 1024 2048) (bx : (⟨1, ![2048]⟩ : Shape).Idx → EReal)
    (D : Mat 128 256) : Params where
  W1 := W1
  b1 := vecRow b1
  W2 := W2
  b2 := vecRow b2
  W3 := W3
  b3 := vecRow b3
  Wz := Wz
  bz := vecRow bz
  Wd1 := Wd1
  bd1 := vecRow bd1
  Wd2 := Wd2
  bd2 := vecRow bd2
  Wd3 := Wd3
  bd3 := vecRow bd3
  Wx := Wx
  bx := vecRow bx
  D := D

/-- The code of a row. -/
def encode (p : Params) (x : Fin 2048 → EReal) : Fin 128 → EReal :=
  dense (relu (dense (relu (dense (relu (dense x p.W1 p.b1)) p.W2 p.b2)) p.W3 p.b3)) p.Wz p.bz

/-- The reconstruction of a row from its code. -/
def decode (p : Params) (z : Fin 128 → EReal) : Fin 2048 → EReal :=
  dense (relu (dense (relu (dense (relu (dense z p.Wd1 p.bd1)) p.Wd2 p.bd2)) p.Wd3 p.bd3)) p.Wx p.bx

/-- Position `g · 8 + k` among 256. -/
def pos (g : Fin 32) (k : Fin 8) : Fin 256 := ⟨g.val * 8 + k.val, by have := g.isLt; have := k.isLt; omega⟩

/-- Each group's sum of squares. -/
def groupSq (q : Fin 256 → EReal) : Fin 32 → EReal := fun g => ∑ k : Fin 8, q (pos g k) * q (pos g k)

/-- `(S + 40) / 48`, entry by entry. -/
def shifted (S : Fin 32 → EReal) : Fin 32 → EReal := shiftScale lit40 lit48 S

/-- The affinities of a code to the 32 groups. -/
def affinity (p : Params) (z : Fin 128 → EReal) : Fin 32 → EReal := overSum (shifted (groupSq (rowDot z p.D)))

/-- The three result arrays over all 16384 rows. -/
def codes (p : Params) (X : Mat 16384 2048) : Mat 16384 128 := ofRows fun n => encode p (rowOf X n)
def recon (p : Params) (X : Mat 16384 2048) : Mat 16384 2048 := ofRows fun n => decode p (encode p (rowOf X n))
def affin (p : Params) (X : Mat 16384 2048) : Mat 16384 32 := ofRows fun n => affinity p (encode p (rowOf X n))

end Cert.Spec

end
-- ==== Proof.RefRows.lean ====
/-
  The reference, row by row.

  Each stage of the reference is a host operation on whole arrays with 16384 rows.  Read through `rowOf`, a product
  is the row's dot products, a bias laid under every row is added entry by entry, and the rectifier acts entry by
  entry; so row `n` of each stage is the corresponding function of row `n` of the input, and of no other row.
  The affinity stages regroup the 256 columns of `z·D` as 32 groups of 8, sum the squares of each group, shift and
  scale, and divide each row by its sum; the two sums start from a zero, which adds nothing.
-/
import proofs.«122460_j9921374454086_1_alg».proof.Proof.Gen.ReferenceIdeal.Read
import proofs.«122460_j9921374454086_1_alg».proof.Proof.Spec

noncomputable section

open scoped BigOperators

namespace Cert.RefRows

open Idealize.ShloMosaic Idealize.ShloMosaic.ValueIdx Cert.LibRowwise Cert.Spec
open Cert.ReferenceIdeal Cert.ReferenceIdeal.Read

variable (x0 : (⟨S16384x2048, .f32⟩ : BufTy).Contents (Elt Ideal)) (x1 : (⟨S2048x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S1024x2048, .f32⟩ : BufTy).Contents (Elt Ideal))
  (x6 : (⟨S2048, .f32⟩ : BufTy).Contents (Elt Ideal)) (x7 : (⟨S2048x128, .f32⟩ : BufTy).Contents (Elt Ideal))
  (x8 : (⟨S128, .f32⟩ : BufTy).Contents (Elt Ideal)) (x9 : (⟨S128x2048, .f32⟩ : BufTy).Contents (Elt Ideal))
  (x10 : (⟨S2048, .f32⟩ : BufTy).Contents (Elt Ideal)) (x11 : (⟨S2048x1024, .f32⟩ : BufTy).Contents (Elt Ideal))
  (x12 : (⟨S1024, .f32⟩ : BufTy).Contents (Elt Ideal)) (x13 : (⟨S1024x1024, .f32⟩ : BufTy).Contents (Elt Ideal))
  (x14 : (⟨S1024, .f32⟩ : BufTy).Contents (Elt Ideal)) (x15 : (⟨S1024x2048, .f32⟩ : BufTy).Contents (Elt Ideal))
  (x16 : (⟨S2048, .f32⟩ : BufTy).Contents (Elt Ideal)) (x17 : (⟨S128x256, .f32⟩ : BufTy).Contents (Elt Ideal))

/-- The reference's arguments as the layers' parameters. -/
abbrev params : Params := paramsOf x1 x2 x3 x4 x5 x6 x7 x8 x9 x10 x11 x12 x13 x14 x15 x16 x17

/-! ## The encoder -/

theorem rows_v4 (n : Fin 16384) :
    rowOf (val_main_v4 (F := Ideal) x0 x1 x2) n = relu (dense (rowOf x0 n) x1 (vecRow x2)) :=
  (rowOf_host_relu _ _ n).trans (congrArg relu (rowOf_host_dense x0 x1 x2 none _ _ n))

theorem rows_v9 (n : Fin 16384) :
    rowOf (val_main_v9 (F := Ideal) x0 x1 x2 x3 x4) n
      = relu (dense (relu (dense (rowOf x0 n) x1 (vecRow x2))) x3 (vecRow x4)) :=
  (rowOf_host_relu _ _ n).trans (congrArg relu
    ((rowOf_host_dense (val_main_v4 (F := Ideal) x0 x1 x2) x3 x4 none _ _ n).trans
      (congrArg (fun a => dense a x3 (vecRow x4)) (rows_v4 x0 x1 x2 n))))

theorem rows_v14 (n : Fin 16384) :
    rowOf (val_main_v14 (F := Ideal) x0 x1 x2 x3 x4 x5 x6) n
      = relu (dense (relu (dense (relu (dense (rowOf x0 n) x1 (vecRow x2))) x3 (vecRow x4))) x5 (vecRow x6)) :=
  (rowOf_host_relu _ _ n).trans (congrArg relu
    ((rowOf_host_dense (val_main_v9 (F := Ideal) x0 x1 x2 x3 x4) x5 x6 none _ _ n).trans
      (congrArg (fun a => dense a x5 (vecRow x6)) (rows_v9 x0 x1 x2 x3 x4 n))))

/-- Row `n` of the code array is the code of row `n`. -/
theorem rows_v18 (n : Fin 16384) :
    rowOf (val_main_v18 (F := Ideal) x0 x1 x2 x3 x4 x5 x6 x7 x8) n
      = encode (params x1 x2 x3 x4 x5 x6 x7 x8 x9 x10 x11 x12 x13 x14 x15 x16 x17) (rowOf x0 n) :=
  (rowOf_host_dense (val_main_v14 (F := Ideal) x0 x1 x2 x3 x4 x5 x6) x7 x8 none _ _ n).trans
    (congrArg (fun a => dense a x7 (vecRow x8)) (rows_v14 x0 x1 x2 x3 x4 x5 x6 n))

/-- The code array is the array of the rows' codes. -/
theorem codes_eq :
    val_main_v18 (F := Ideal) x0 x1 x2 x3 x4 x5 x6 x7 x8 = codes (params x1 x2 x3 x4 x5 x6 x7 x8 x9 x10 x11 x12 x13 x14 x15 x16 x17) x0 :=
  eq_ofRows fun n => rows_v18 x0 x1 x2 x3 x4 x5 x6 x7 x8 x9 x10 x11 x12 x13 x14 x15 x16 x17 n

/-! ## The decoder -/

theorem rows_v23 (n : Fin 16384) :
    rowOf (val_main_v23 (F := Ideal) x0 x1 x2 x3 x4 x5 x6 x7 x8 x9 x10) n
      = relu (dense (encode (params x1 x2 x3 x4 x5 x6 x7 x8 x9 x10 x11 x12 x13 x14 x15 x16 x17) (rowOf x0 n)) x9 (vecRow x10)) :=
  (rowOf_host_relu _ _ n).trans (congrArg relu
    ((rowOf_host_dense (val_main_v18 (F := Ideal) x0 x1 x2 x3 x4 x5 x6 x7 x8) x9 x10 none _ _ n).trans
      (congrArg (fun a => dense a x9 (vecRow x10)) (rows_v18 x0 x1 x2 x3 x4 x5 x6 x7 x8 x9 x10 x11 x12 x13 x14 x15 x16 x17 n))))

theorem rows_v28 (n : Fin 16384) :
    rowOf (val_main_v28 (F := Ideal) x0 x1 x2 x3 x4 x5 x6 x7 x8 x9 x10 x11 x12) n
      = relu (dense (relu (dense (encode (params x1 x2 x3 x4 x5 x6 x7 x8 x9 x10 x11 x12 x13 x14 x15 x16 x17) (rowOf x0 n)) x9 (vecRow x10))) x11 (vecRow x12)) :=
  (rowOf_host_relu _ _ n).trans (congrArg relu
    ((rowOf_host_dense (val_main_v23 (F := Ideal) x0 x1 x2 x3 x4 x5 x6 x7 x8 x9 x10) x11 x12 none _ _ n).trans
      (congrArg (fun a => dense a x11 (vecRow x12)) (rows_v23 x0 x1 x2 x3 x4 x5 x6 x7 x8 x9 x10 x11 x12 x13 x14 x15 x16 x17 n))))

theorem rows_v33 (n : Fin 16384) :
    rowOf (val_main_v33 (F := Ideal) x0 x1 x2 x3 x4 x5 x6 x7 x8 x9 x10 x11 x12 x13 x14) n
      = relu (dense (relu (dense (relu (dense (encode (params x1 x2 x3 x4 x5 x6 x7 x8 x9 x10 x11 x12 x13 x14 x15 x16 x17) (rowOf x0 n)) x9 (vecRow x10))) x11 (vecRow x12))) x13 (vecRow x14)) :=
  (rowOf_host_relu _ _ n).trans (congrArg relu
    ((rowOf_host_dense (val_main_v28 (F := Ideal) x0 x1 x2 x3 x4 x5 x6 x7 x8 x9 x10 x11 x12) x13 x14 none _ _ n).trans
      (congrArg (fun a => dense a x13 (vecRow x14)) (rows_v28 x0 x1 x2 x3 x4 x5 x6 x7 x8 x9 x10 x11 x12 x13 x14 x15 x16 x17 n))))

/-- Row `n` of the reconstruction is the reconstruction of row `n`. -/
theorem rows_v37 (n : Fin 16384) :
    rowOf (val_main_v37 (F := Ideal) x0 x1 x2 x3 x4 x5 x6 x7 x8 x9 x10 x11 x12 x13 x14 x15 x16) n
      = decode (params x1 x2 x3 x4 x5 x6 x7 x8 x9 x10 x11 x12 x13 x14 x15 x16 x17) (encode (params x1 x2 x3 x4 x5 x6 x7 x8 x9 x10 x11 x12 x13 x14 x15 x16 x17) (rowOf x0 n)) :=
  (rowOf_host_dense (val_main_v33 (F := Ideal) x0 x1 x2 x3 x4 x5 x6 x7 x8 x9 x10 x11 x12 x13 x14) x15 x16 none _ _ n).trans
    (congrArg (fun a => dense a x15 (vecRow x16)) (rows_v33 x0 x1 x2 x3 x4 x5 x6 x7 x8 x9 x10 x11 x12 x13 x14 x15 x16 x17 n))

theorem recon_eq :
    val_main_v37 (F := Ideal) x0 x1 x2 x3 x4 x5 x6 x7 x8 x9 x10 x11 x12 x13 x14 x15 x16 = recon (params x1 x2 x3 x4 x5 x6 x7 x8 x9 x10 x11 x12 x13 x14 x15 x16 x17) x0 :=
  eq_ofRows fun n => rows_v37 x0 x1 x2 x3 x4 x5 x6 x7 x8 x9 x10 x11 x12 x13 x14 x15 x16 x17 n

/-! ## The affinities -/

/-- `z · D`, row by row. -/
theorem rows_v38 (n : Fin 16384) :
    rowOf (val_main_v38 (F := Ideal) x0 x1 x2 x3 x4 x5 x6 x7 x8 x17) n
      = rowDot (encode (params x1 x2 x3 x4 x5 x6 x7 x8 x9 x10 x11 x12 x13 x14 x15 x16 x17) (rowOf x0 n)) x17 :=
  (rowOf_dotGeneral none (val_main_v18 (F := Ideal) x0 x1 x2 x3 x4 x5 x6 x7 x8) x17 n).trans
    (congrArg (fun a => rowDot a x17) (rows_v18 x0 x1 x2 x3 x4 x5 x6 x7 x8 x9 x10 x11 x12 x13 x14 x15 x16 x17 n))

/-- The sums of squares of the 32 groups of 8 columns. -/
theorem rows_v41 (n : Fin 16384) :
    rowOf (val_main_v41 (F := Ideal) x0 x1 x2 x3 x4 x5 x6 x7 x8 x17) n
      = groupSq (rowOf (val_main_v38 (F := Ideal) x0 x1 x2 x3 x4 x5 x6 x7 x8 x17) n) := by
  refine (rowOf_groupSum_host (val_main_v40 (F := Ideal) x0 x1 x2 x3 x4 x5 x6 x7 x8 x17) (val_main_cst (F := Ideal))
    Gen.reducesTo_S16384x32x8_S16384x32_d2 (by decide) Gen.h_S_ n).trans ?_
  funext g
  show Ideal.ofBits .f32 0x00000000#32 + _ = _
  rw [Ideal.ofBits_zero_f32, zero_add]
  refine Finset.sum_congr rfl fun k _ => ?_
  have e : val_main_v39 (F := Ideal) x0 x1 x2 x3 x4 x5 x6 x7 x8 x17 (ix3 n g k)
      = rowOf (val_main_v38 (F := Ideal) x0 x1 x2 x3 x4 x5 x6 x7 x8 x17) n (pos g k) :=
    shapeCast_groups_apply (val_main_v38 (F := Ideal) x0 x1 x2 x3 x4 x5 x6 x7 x8 x17) Gen.shapeCasts_S16384x256_S16384x32x8
      (by decide) n g k (pos g k) rfl
  show val_main_v39 (F := Ideal) x0 x1 x2 x3 x4 x5 x6 x7 x8 x17 (ix3 n g k) * val_main_v39 (F := Ideal) x0 x1 x2 x3 x4 x5 x6 x7 x8 x17 (ix3 n g k) = _
  rw [e]

/-- Shifted by 40 and divided by 48. -/
theorem rows_v45 (n : Fin 16384) :
    rowOf (val_main_v45 (F := Ideal) x0 x1 x2 x3 x4 x5 x6 x7 x8 x17) n
      = shifted (rowOf (val_main_v41 (F := Ideal) x0 x1 x2 x3 x4 x5 x6 x7 x8 x17) n) := by
  unfold val_main_v45 val_main_v44 val_main_v43 val_main_v42
  rw [rowOf_hostDivf, rowOf_addf, rowOf_broadcastInDim_scalar, rowOf_broadcastInDim_scalar]
  rfl

/-- Each row divided by its sum. -/
theorem rows_v49 (n : Fin 16384) :
    rowOf (val_main_v49 (F := Ideal) x0 x1 x2 x3 x4 x5 x6 x7 x8 x17) n
      = overSum (rowOf (val_main_v45 (F := Ideal) x0 x1 x2 x3 x4 x5 x6 x7 x8 x17) n) := by
  unfold val_main_v49 val_main_v48 val_main_v47 val_main_v46
  rw [rowOf_hostDivf, rowOf_rowSum_host _ _ _ (by decide)]
  funext g
  show Ideal.div _ (Ideal.ofBits .f32 0x00000000#32 + _) = _
  rw [Ideal.ofBits_zero_f32, zero_add]
  rfl

/-- Row `n` of the affinity array is the affinity of row `n`'s code. -/
theorem rows_affin (n : Fin 16384) :
    rowOf (val_main_v49 (F := Ideal) x0 x1 x2 x3 x4 x5 x6 x7 x8 x17) n
      = affinity (params x1 x2 x3 x4 x5 x6 x7 x8 x9 x10 x11 x12 x13 x14 x15 x16 x17) (encode (params x1 x2 x3 x4 x5 x6 x7 x8 x9 x10 x11 x12 x13 x14 x15 x16 x17) (rowOf x0 n)) := by
  rw [rows_v49, rows_v45, rows_v41, rows_v38 x0 x1 x2 x3 x4 x5 x6 x7 x8 x9 x10 x11 x12 x13 x14 x15 x16 x17 n]
  rfl

theorem affin_eq :
    val_main_v49 (F := Ideal) x0 x1 x2 x3 x4 x5 x6 x7 x8 x17 = affin (params x1 x2 x3 x4 x5 x6 x7 x8 x9 x10 x11 x12 x13 x14 x15 x16 x17) x0 :=
  eq_ofRows fun n => rows_affin x0 x1 x2 x3 x4 x5 x6 x7 x8 x9 x10 x11 x12 x13 x14 x15 x16 x17 n

end Cert.RefRows

end
-- ==== Proof.WindowArrays.lean ====
/-
  The arrays the kernel's windows stage, as the region finds them.

  Before the region the host narrows each weight matrix to bf16 and stores each bias vector as a one-row matrix.
  On extended reals the narrowing is the identity, so a staged weight matrix is the argument itself, and a staged
  bias is the argument's row-major cast to one row.
-/
import proofs.«122460_j9921374454086_1_alg».proof.Proof.Gen.KernelIdeal.Frame
import Idealize.ShloMosaic.Lib.StableHlo.Run
import Idealize.ShloMosaic.PureOps.Ideal

noncomputable section

namespace Cert.KernelIdeal.Staged

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- Read one staged array off the host operations before the region. -/
local macro "read_staged" : tactic =>
  `(tactic| (dsimp only [V]
             simp only [hostOps0, hostOps0_1, hostOps0_2, List.flatten_cons, List.flatten_nil, List.append_nil,
               List.cons_append, List.nil_append]
             after_results
             rfl))

/-- `main_v0` is `main_arg1`, narrowed: the same extended reals. -/
theorem V_main_v0 (c : Dev nD) : (V m c main_v0 : S2048x1024.Idx → EReal) = m ((c : Thread nD τ).loc main_arg1) := by
  read_staged

/-- `main_v9` is the vector `main_arg2` stored as one row. -/
theorem V_main_v9 (c : Dev nD) : (V m c main_v9 : S1x1024.Idx → EReal) = shapeCast S1x1024 (m ((c : Thread nD τ).loc main_arg2)) shapeCasts_S1024_S1x1024 := by
  read_staged

/-- `main_v1` is `main_arg3`, narrowed: the same extended reals. -/
theorem V_main_v1 (c : Dev nD) : (V m c main_v1 : S1024x1024.Idx → EReal) = m ((c : Thread nD τ).loc main_arg3) := by
  read_staged

/-- `main_v10` is the vector `main_arg4` stored as one row. -/
theorem V_main_v10 (c : Dev nD) : (V m c main_v10 : S1x1024.Idx → EReal) = shapeCast S1x1024 (m ((c : Thread nD τ).loc main_arg4)) shapeCasts_S1024_S1x1024 := by
  read_staged

/-- `main_v2` is `main_arg5`, narrowed: the same extended reals. -/
theorem V_main_v2 (c : Dev nD) : (V m c main_v2 : S1024x2048.Idx → EReal) = m ((c : Thread nD τ).loc main_arg5) := by
  read_staged

/-- `main_v11` is the vector `main_arg6` stored as one row. -/
theorem V_main_v11 (c : Dev nD) : (V m c main_v11 : S1x2048.Idx → EReal) = shapeCast S1x2048 (m ((c : Thread nD τ).loc main_arg6)) shapeCasts_S2048_S1x2048 := by
  read_staged

/-- `main_v3` is `main_arg7`, narrowed: the same extended reals. -/
theorem V_main_v3 (c : Dev nD) : (V m c main_v3 : S2048x128.Idx → EReal) = m ((c : Thread nD τ).loc main_arg7) := by
  read_staged

/-- `main_v12` is the vector `main_arg8` stored as one row. -/
theorem V_main_v12 (c : Dev nD) : (V m c main_v12 : S1x128.Idx → EReal) = shapeCast S1x128 (m ((c : Thread nD τ).loc main_arg8)) shapeCasts_S128_S1x128 := by
  read_staged

/-- `main_v4` is `main_arg9`, narrowed: the same extended reals. -/
theorem V_main_v4 (c : Dev nD) : (V m c main_v4 : S128x2048.Idx → EReal) = m ((c : Thread nD τ).loc main_arg9) := by
  read_staged

/-- `main_v13` is the vector `main_arg10` stored as one row. -/
theorem V_main_v13 (c : Dev nD) : (V m c main_v13 : S1x2048.Idx → EReal) = shapeCast S1x2048 (m ((c : Thread nD τ).loc main_arg10)) shapeCasts_S2048_S1x2048 := by
  read_staged

/-- `main_v5` is `main_arg11`, narrowed: the same extended reals. -/
theorem V_main_v5 (c : Dev nD) : (V m c main_v5 : S2048x1024.Idx → EReal) = m ((c : Thread nD τ).loc main_arg11) := by
  read_staged

/-- `main_v14` is the vector `main_arg12` stored as one row. -/
theorem V_main_v14 (c : Dev nD) : (V m c main_v14 : S1x1024.Idx → EReal) = shapeCast S1x1024 (m ((c : Thread nD τ).loc main_arg12)) shapeCasts_S1024_S1x1024 := by
  read_staged

/-- `main_v6` is `main_arg13`, narrowed: the same extended reals. -/
theorem V_main_v6 (c : Dev nD) : (V m c main_v6 : S1024x1024.Idx → EReal) = m ((c : Thread nD τ).loc main_arg13) := by
  read_staged

/-- `main_v15` is the vector `main_arg14` stored as one row. -/
theorem V_main_v15 (c : Dev nD) : (V m c main_v15 : S1x1024.Idx → EReal) = shapeCast S1x1024 (m ((c : Thread nD τ).loc main_arg14)) shapeCasts_S1024_S1x1024 := by
  read_staged

/-- `main_v7` is `main_arg15`, narrowed: the same extended reals. -/
theorem V_main_v7 (c : Dev nD) : (V m c main_v7 : S1024x2048.Idx → EReal) = m ((c : Thread nD τ).loc main_arg15) := by
  read_staged

/-- `main_v16` is the vector `main_arg16` stored as one row. -/
theorem V_main_v16 (c : Dev nD) : (V m c main_v16 : S1x2048.Idx → EReal) = shapeCast S1x2048 (m ((c : Thread nD τ).loc main_arg16)) shapeCasts_S2048_S1x2048 := by
  read_staged

/-- `main_v8` is `main_arg17`, narrowed: the same extended reals. -/
theorem V_main_v8 (c : Dev nD) : (V m c main_v8 : S128x256.Idx → EReal) = m ((c : Thread nD τ).loc main_arg17) := by
  read_staged

end Cert.KernelIdeal.Staged

end
-- ==== Proof.WindowBlocks.lean ====
/-
  The blocks of the windows that stage a whole array.

  Eighteen of the kernel's input windows have one block, the whole array, at block index (0, 0) at every grid
  point: an element of the block sits in the array at 0 · size + its own coordinate on each axis, so the block read
  through the window is the array.
-/
import proofs.«122460_j9921374454086_1_alg».proof.Proof.Gen.KernelIdeal.Frame
import Idealize.ShloMosaic.PureOps.Ideal

noncomputable section

namespace Cert.KernelIdeal.Blocks

open Idealize.ShloMosaic Idealize.ShloMosaic.TcCoe Idealize.SL.Sem
open Cert.KernelIdeal Cert.KernelIdeal.Gen

variable (m : (ℓ : Loc nD τ sig) → Buf (Elt Ideal) ℓ)

/-- The printed index maps of the eighteen windows, decided over the grid: block index (0, 0) at every point. -/
theorem idx_zero : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 2) = 0 ∧ win0_18.index t (1 : Fin 2) = 0) :=
  (by decide +kernel : ∀ t : Fin grid0.N, _)

/-- Window 1's block at every point is the whole of `main_v0`. -/
theorem blk1 (c : Dev nD) (t : Fin cfg0.N) : (iblk m c 1 t : Vec Ideal S2048x1024 .bf16) = V m c main_v0 := by
  obtain ⟨h0, h1⟩ := (idx_zero t).1
  funext y
  unfold iblk
  rw [View.read_apply]
  show V m c main_v0 _ = V m c main_v0 y
  refine congrArg (V m c main_v0) (funext fun a => Fin.ext ?_)
  match a with
  | ⟨0, _⟩ => show win0_1.index t (0 : Fin 2) * 2048 + 1 * (y 0).val = (y 0).val; rw [h0]; omega
  | ⟨1, _⟩ => show win0_1.index t (1 : Fin 2) * 1024 + 1 * (y 1).val = (y 1).val; rw [h1]; omega

/-- Window 2's block at every point is the whole of `main_v9`. -/
theorem blk2 (c : Dev nD) (t : Fin cfg0.N) : (iblk m c 2 t : Vec Ideal S1x1024 .f32) = V m c main_v9 := by
  obtain ⟨h0, h1⟩ := (idx_zero t).2.1
  funext y
  unfold iblk
  rw [View.read_apply]
  show V m c main_v9 _ = V m c main_v9 y
  refine congrArg (V m c main_v9) (funext fun a => Fin.ext ?_)
  match a with
  | ⟨0, _⟩ => show win0_2.index t (0 : Fin 2) * 1 + 1 * (y 0).val = (y 0).val; rw [h0]; omega
  | ⟨1, _⟩ => show win0_2.index t (1 : Fin 2) * 1024 + 1 * (y 1).val = (y 1).val; rw [h1]; omega

/-- Window 3's block at every point is the whole of `main_v1`. -/
theorem blk3 (c : Dev nD) (t : Fin cfg0.N) : (iblk m c 3 t : Vec Ideal S1024x1024 .bf16) = V m c main_v1 := by
  obtain ⟨h0, h1⟩ := (idx_zero t).2.2.1
  funext y
  unfold iblk
  rw [View.read_apply]
  show V m c main_v1 _ = V m c main_v1 y
  refine congrArg (V m c main_v1) (funext fun a => Fin.ext ?_)
  match a with
  | ⟨0, _⟩ => show win0_3.index t (0 : Fin 2) * 1024 + 1 * (y 0).val = (y 0).val; rw [h0]; omega
  | ⟨1, _⟩ => show win0_3.index t (1 : Fin 2) * 1024 + 1 * (y 1).val = (y 1).val; rw [h1]; omega

/-- Window 4's block at every point is the whole of `main_v10`. -/
theorem blk4 (c : Dev nD) (t : Fin cfg0.N) : (iblk m c 4 t : Vec Ideal S1x1024 .f32) = V m c main_v10 := by
  obtain ⟨h0, h1⟩ := (idx_zero t).2.2.2.1
  funext y
  unfold iblk
  rw [View.read_apply]
  show V m c main_v10 _ = V m c main_v10 y
  refine congrArg (V m c main_v10) (funext fun a => Fin.ext ?_)
  match a with
  | ⟨0, _⟩ => show win0_4.index t (0 : Fin 2) * 1 + 1 * (y 0).val = (y 0).val; rw [h0]; omega
  | ⟨1, _⟩ => show win0_4.index t (1 : Fin 2) * 1024 + 1 * (y 1).val = (y 1).val; rw [h1]; omega

/-- Window 5's block at every point is the whole of `main_v2`. -/
theorem blk5 (c : Dev nD) (t : Fin cfg0.N) : (iblk m c 5 t : Vec Ideal S1024x2048 .bf16) = V m c main_v2 := by
  obtain ⟨h0, h1⟩ := (idx_zero t).2.2.2.2.1
  funext y
  unfold iblk
  rw [View.read_apply]
  show V m c main_v2 _ = V m c main_v2 y
  refine congrArg (V m c main_v2) (funext fun a => Fin.ext ?_)
  match a with
  | ⟨0, _⟩ => show win0_5.index t (0 : Fin 2) * 1024 + 1 * (y 0).val = (y 0).val; rw [h0]; omega
  | ⟨1, _⟩ => show win0_5.index t (1 : Fin 2) * 2048 + 1 * (y 1).val = (y 1).val; rw [h1]; omega

/-- Window 6's block at every point is the whole of `main_v11`. -/
theorem blk6 (c : Dev nD) (t : Fin cfg0.N) : (iblk m c 6 t : Vec Ideal S1x2048 .f32) = V m c main_v11 := by
  obtain ⟨h0, h1⟩ := (idx_zero t).2.2.2.2.2.1
  funext y
  unfold iblk
  rw [View.read_apply]
  show V m c main_v11 _ = V m c main_v11 y
  refine congrArg (V m c main_v11) (funext fun a => Fin.ext ?_)
  match a with
  | ⟨0, _⟩ => show win0_6.index t (0 : Fin 2) * 1 + 1 * (y 0).val = (y 0).val; rw [h0]; omega
  | ⟨1, _⟩ => show win0_6.index t (1 : Fin 2) * 2048 + 1 * (y 1).val = (y 1).val; rw [h1]; omega

/-- Window 7's block at every point is the whole of `main_v3`. -/
theorem blk7 (c : Dev nD) (t : Fin cfg0.N) : (iblk m c 7 t : Vec Ideal S2048x128 .bf16) = V m c main_v3 := by
  obtain ⟨h0, h1⟩ := (idx_zero t).2.2.2.2.2.2.1
  funext y
  unfold iblk
  rw [View.read_apply]
  show V m c main_v3 _ = V m c main_v3 y
  refine congrArg (V m c main_v3) (funext fun a => Fin.ext ?_)
  match a with
  | ⟨0, _⟩ => show win0_7.index t (0 : Fin 2) * 2048 + 1 * (y 0).val = (y 0).val; rw [h0]; omega
  | ⟨1, _⟩ => show win0_7.index t (1 : Fin 2) * 128 + 1 * (y 1).val = (y 1).val; rw [h1]; omega

/-- Window 8's block at every point is the whole of `main_v12`. -/
theorem blk8 (c : Dev nD) (t : Fin cfg0.N) : (iblk m c 8 t : Vec Ideal S1x128 .f32) = V m c main_v12 := by
  obtain ⟨h0, h1⟩ := (idx_zero t).2.2.2.2.2.2.2.1
  funext y
  unfold iblk
  rw [View.read_apply]
  show V m c main_v12 _ = V m c main_v12 y
  refine congrArg (V m c main_v12) (funext fun a => Fin.ext ?_)
  match a with
  | ⟨0, _⟩ => show win0_8.index t (0 : Fin 2) * 1 + 1 * (y 0).val = (y 0).val; rw [h0]; omega
  | ⟨1, _⟩ => show win0_8.index t (1 : Fin 2) * 128 + 1 * (y 1).val = (y 1).val; rw [h1]; omega

/-- Window 9's block at every point is the whole of `main_v4`. -/
theorem blk9 (c : Dev nD) (t : Fin cfg0.N) : (iblk m c 9 t : Vec Ideal S128x2048 .bf16) = V m c main_v4 := by
  obtain ⟨h0, h1⟩ := (idx_zero t).2.2.2.2.2.2.2.2.1
  funext y
  unfold iblk
  rw [View.read_apply]
  show V m c main_v4 _ = V m c main_v4 y
  refine congrArg (V m c main_v4) (funext fun a => Fin.ext ?_)
  match a with
  | ⟨0, _⟩ => show win0_9.index t (0 : Fin 2) * 128 + 1 * (y 0).val = (y 0).val; rw [h0]; omega
  | ⟨1, _⟩ => show win0_9.index t (1 : Fin 2) * 2048 + 1 * (y 1).val = (y 1).val; rw [h1]; omega

/-- Window 10's block at every point is the whole of `main_v13`. -/
theorem blk10 (c : Dev nD) (t : Fin cfg0.N) : (iblk m c 10 t : Vec Ideal S1x2048 .f32) = V m c main_v13 := by
  obtain ⟨h0, h1⟩ := (idx_zero t).2.2.2.2.2.2.2.2.2.1
  funext y
  unfold iblk
  rw [View.read_apply]
  show V m c main_v13 _ = V m c main_v13 y
  refine congrArg (V m c main_v13) (funext fun a => Fin.ext ?_)
  match a with
  | ⟨0, _⟩ => show win0_10.index t (0 : Fin 2) * 1 + 1 * (y 0).val = (y 0).val; rw [h0]; omega
  | ⟨1, _⟩ => show win0_10.index t (1 : Fin 2) * 2048 + 1 * (y 1).val = (y 1).val; rw [h1]; omega

/-- Window 11's block at every point is the whole of `main_v5`. -/
theorem blk11 (c : Dev nD) (t : Fin cfg0.N) : (iblk m c 11 t : Vec Ideal S2048x1024 .bf16) = V m c main_v5 := by
  obtain ⟨h0, h1⟩ := (idx_zero t).2.2.2.2.2.2.2.2.2.2.1
  funext y
  unfold iblk
  rw [View.read_apply]
  show V m c main_v5 _ = V m c main_v5 y
  refine congrArg (V m c main_v5) (funext fun a => Fin.ext ?_)
  match a with
  | ⟨0, _⟩ => show win0_11.index t (0 : Fin 2) * 2048 + 1 * (y 0).val = (y 0).val; rw [h0]; omega
  | ⟨1, _⟩ => show win0_11.index t (1 : Fin 2) * 1024 + 1 * (y 1).val = (y 1).val; rw [h1]; omega

/-- Window 12's block at every point is the whole of `main_v14`. -/
theorem blk12 (c : Dev nD) (t : Fin cfg0.N) : (iblk m c 12 t : Vec Ideal S1x1024 .f32) = V m c main_v14 := by
  obtain ⟨h0, h1⟩ := (idx_zero t).2.2.2.2.2.2.2.2.2.2.2.1
  funext y
  unfold iblk
  rw [View.read_apply]
  show V m c main_v14 _ = V m c main_v14 y
  refine congrArg (V m c main_v14) (funext fun a => Fin.ext ?_)
  match a with
  | ⟨0, _⟩ => show win0_12.index t (0 : Fin 2) * 1 + 1 * (y 0).val = (y 0).val; rw [h0]; omega
  | ⟨1, _⟩ => show win0_12.index t (1 : Fin 2) * 1024 + 1 * (y 1).val = (y 1).val; rw [h1]; omega

/-- Window 13's block at every point is the whole of `main_v6`. -/
theorem blk13 (c : Dev nD) (t : Fin cfg0.N) : (iblk m c 13 t : Vec Ideal S1024x1024 .bf16) = V m c main_v6 := by
  obtain ⟨h0, h1⟩ := (idx_zero t).2.2.2.2.2.2.2.2.2.2.2.2.1
  funext y
  unfold iblk
  rw [View.read_apply]
  show V m c main_v6 _ = V m c main_v6 y
  refine congrArg (V m c main_v6) (funext fun a => Fin.ext ?_)
  match a with
  | ⟨0, _⟩ => show win0_13.index t (0 : Fin 2) * 1024 + 1 * (y 0).val = (y 0).val; rw [h0]; omega
  | ⟨1, _⟩ => show win0_13.index t (1 : Fin 2) * 1024 + 1 * (y 1).val = (y 1).val; rw [h1]; omega

/-- Window 14's block at every point is the whole of `main_v15`. -/
theorem blk14 (c : Dev nD) (t : Fin cfg0.N) : (iblk m c 14 t : Vec Ideal S1x1024 .f32) = V m c main_v15 := by
  obtain ⟨h0, h1⟩ := (idx_zero t).2.2.2.2.2.2.2.2.2.2.2.2.2.1
  funext y
  unfold iblk
  rw [View.read_apply]
  show V m c main_v15 _ = V m c main_v15 y
  refine congrArg (V m c main_v15) (funext fun a => Fin.ext ?_)
  match a with
  | ⟨0, _⟩ => show win0_14.index t (0 : Fin 2) * 1 + 1 * (y 0).val = (y 0).val; rw [h0]; omega
  | ⟨1, _⟩ => show win0_14.index t (1 : Fin 2) * 1024 + 1 * (y 1).val = (y 1).val; rw [h1]; omega

/-- Window 15's block at every point is the whole of `main_v7`. -/
theorem blk15 (c : Dev nD) (t : Fin cfg0.N) : (iblk m c 15 t : Vec Ideal S1024x2048 .bf16) = V m c main_v7 := by
  obtain ⟨h0, h1⟩ := (idx_zero t).2.2.2.2.2.2.2.2.2.2.2.2.2.2.1
  funext y
  unfold iblk
  rw [View.read_apply]
  show V m c main_v7 _ = V m c main_v7 y
  refine congrArg (V m c main_v7) (funext fun a => Fin.ext ?_)
  match a with
  | ⟨0, _⟩ => show win0_15.index t (0 : Fin 2) * 1024 + 1 * (y 0).val = (y 0).val; rw [h0]; omega
  | ⟨1, _⟩ => show win0_15.index t (1 : Fin 2) * 2048 + 1 * (y 1).val = (y 1).val; rw [h1]; omega

/-- Window 16's block at every point is the whole of `main_v16`. -/
theorem blk16 (c : Dev nD) (t : Fin cfg0.N) : (iblk m c 16 t : Vec Ideal S1x2048 .f32) = V m c main_v16 := by
  obtain ⟨h0, h1⟩ := (idx_zero t).2.2.2.2.2.2.2.2.2.2.2.2.2.2.2.1
  funext y
  unfold iblk
  rw [View.read_apply]
  show V m c main_v16 _ = V m c main_v16 y
  refine congrArg (V m c main_v16) (funext fun a => Fin.ext ?_)
  match a with
  | ⟨0, _⟩ => show win0_16.index t (0 : Fin 2) * 1 + 1 * (y 0).val = (y 0).val; rw [h0]; omega
  | ⟨1, _⟩ => show win0_16.index t (1 : Fin 2) * 2048 + 1 * (y 1).val = (y 1).val; rw [h1]; omega

/-- Window 17's block at every point is the whole of `main_v8`. -/
theorem blk17 (c : Dev nD) (t : Fin cfg0.N) : (iblk m c 17 t : Vec Ideal S128x256 .bf16) = V m c main_v8 := by
  obtain ⟨h0, h1⟩ := (idx_zero t).2.2.2.2.2.2.2.2.2.2.2.2.2.2.2.2.1
  funext y
  unfold iblk
  rw [View.read_apply]
  show V m c main_v8 _ = V m c main_v8 y
  refine congrArg (V m c main_v8) (funext fun a => Fin.ext ?_)
  match a with
  | ⟨0, _⟩ => show win0_17.index t (0 : Fin 2) * 128 + 1 * (y 0).val = (y 0).val; rw [h0]; omega
  | ⟨1, _⟩ => show win0_17.index t (1 : Fin 2) * 256 + 1 * (y 1).val = (y 1).val; rw [h1]; omega

/-- Window 18's block at every point is the whole of `main_v25`. -/
theorem blk18 (c : Dev nD) (t : Fin cfg0.N) : (iblk m c 18 t : Vec Ideal S256x32 .bf16) = V m c main_v25 := by
  obtain ⟨h0, h1⟩ := (idx_zero t).2.2.2.2.2.2.2.2.2.2.2.2.2.2.2.2.2
  funext y
  unfold iblk
  rw [View.read_apply]
  show V m c main_v25 _ = V m c main_v25 y
  refine congrArg (V m c main_v25) (funext fun a => Fin.ext ?_)
  match a with
  | ⟨0, _⟩ => show win0_18.index t (0 : Fin 2) * 256 + 1 * (y 0).val = (y 0).val; rw [h0]; omega
  | ⟨1, _⟩ => show win0_18.index t (1 : Fin 2) * 32 + 1 * (y 1).val = (y 1).val; rw [h1]; omega

end Cert.KernelIdeal.Blocks

end
-- ==== Proof.PoolMatrix.lean ====
/-
  The selector matrix.

  Before the region the host builds a 256 × 32 matrix of zeros and ones: entry `(p, q)` compares `p` floor-divided by
  8 with `q`, and the truth value is converted to a float.  The floor division is jnp's: the truncated quotient,
  lowered by one when the signs of dividend and divisor differ and the remainder is not zero.  On the words
  `0 … 255` it is the natural-number quotient (decided case by case), and two words below `2³²` are equal exactly
  when their numbers are; so the entry is `1` when `p / 8 = q` and `0` otherwise.
-/
import proofs.«122460_j9921374454086_1_alg».proof.Proof.Gen.KernelIdeal.Frame
import Idealize.ShloMosaic.Lib.StableHlo.Run
import Idealize.ShloMosaic.Lib.StableHlo.Predicate
import Idealize.ShloMosaic.PureOps.Ideal

noncomputable section

namespace Cert.KernelIdeal.Pool

open Idealize.ShloMosaic Idealize.ShloMosaic.TcCoe Idealize.SL.Sem Idealize.ShloMosaic.StableHlo
open Idealize.ShloMosaic.StableHlo.Predicate
open Cert.KernelIdeal Cert.KernelIdeal.Gen

/-! ## On words -/

/-- The sign of a word as the host takes it: `0`, `-1` or `1`. -/
def sgn (x : BitVec 32) : BitVec 32 := if x = 0 then 0 else if x.msb then -1 else 1

/-- jnp's floor division by 8 on a 32-bit word, as the host operations compute it. -/
def fdiv8 (x : BitVec 32) : BitVec 32 :=
  Scalar.select (IntOp.andi (IntOp.cmpi .ne (sgn x) (sgn 8#32)) (IntOp.cmpi .ne (IntOp.remsi .host x 8#32) 0#32))
    (IntOp.subi (IntOp.divsi .host x 8#32) 1#32) (IntOp.divsi .host x 8#32)

/-- Comparing the floor quotient of a word below 256 with a word below 32 decides `p / 8 = q`. -/
theorem cmp_fdiv8 : ∀ (p : Fin 256) (q : Fin 32),
    IntOp.cmpi .eq (fdiv8 (BitVec.ofNat 32 p.val)) (BitVec.ofNat 32 q.val) = if p.val / 8 = q.val then 1#1 else 0#1 := by
  decide +kernel

/-! ## The host's term -/

/-- The positions `0 … 255` floor-divided by 8, as the host computes the vector. -/
def fdivVec : IVec S256 32 :=
  select
    (andi (cmpi .ne (signi (iotaInDim S256 32 0)) (broadcastInDim S256 ![] bcast_S_S256 (signi (constantI S_ 32 8#32))))
      (cmpi .ne (Host.remsi (iotaInDim S256 32 0) (broadcastInDim S256 ![] bcast_S_S256 (constantI S_ 32 8#32)))
        (broadcastInDim S256 ![] bcast_S_S256 (constantI S_ 32 0#32))))
    (subi (Host.divsi (iotaInDim S256 32 0) (broadcastInDim S256 ![] bcast_S_S256 (constantI S_ 32 8#32)))
      (broadcastInDim S256 ![] bcast_S_S256 (constantI S_ 32 1#32)))
    (Host.divsi (iotaInDim S256 32 0) (broadcastInDim S256 ![] bcast_S_S256 (constantI S_ 32 8#32)))

/-- The selector as the host builds it: the quotients down the rows, the group numbers along the columns, compared
    and converted. -/
def selector : FVec Ideal S256x32 .bf16 :=
  uitofp .bf16 (cmpi .eq
    (broadcastInDim S256x32 ![0, 1] bcast_S256x1_S256x32_0_1 (broadcastInDim S256x1 ![0] bcast_S256_S256x1_0 fdivVec))
    (broadcastInDim S256x32 ![0, 1] bcast_S1x32_S256x32_0_1 (broadcastInDim S1x32 ![1] bcast_S32_S1x32_1 (iotaInDim S32 32 0))))

/-- Entry `p` of the quotient vector is the word-level floor quotient of the word `p`. -/
theorem fdivVec_apply (p : Fin 256) : fdivVec (Shape.Idx.ofFin p) = fdiv8 (BitVec.ofNat 32 p.val) := rfl

/-- Entry `(p, q)` of the selector is `1` when `p / 8 = q`, else `0`. -/
theorem selector_apply (p : Fin 256) (q : Fin 32) :
    selector (ij p q) = (if p.val / 8 = q.val then (1 : EReal) else 0) := by
  unfold selector
  show FloatOps.uitofp (F := Ideal) .bf16 (IntOp.cmpi .eq
    (broadcastInDim S256x32 ![0, 1] bcast_S256x1_S256x32_0_1 (broadcastInDim S256x1 ![0] bcast_S256_S256x1_0 fdivVec) (ij p q))
    (broadcastInDim S256x32 ![0, 1] bcast_S1x32_S256x32_0_1 (broadcastInDim S1x32 ![1] bcast_S32_S1x32_1 (iotaInDim S32 32 0)) (ij p q))) = _
  rw [bcast_rows bcast_S256_S256x1_0 bcast_S256x1_S256x32_0_1 fdivVec p q,
    bcast_cols bcast_S32_S1x32_1 bcast_S1x32_S256x32_0_1 (iotaInDim S32 32 0) p q, fdivVec_apply]
  show FloatOps.uitofp (F := Ideal) .bf16 (IntOp.cmpi .eq (fdiv8 (BitVec.ofNat 32 p.val)) (BitVec.ofNat 32 q.val)) = _
  rw [cmp_fdiv8 p q]
  split
  · show (((1#1 : BitVec 1).toNat : ℝ) : EReal) = 1
    simp
  · show (((0#1 : BitVec 1).toNat : ℝ) : EReal) = 0
    simp

/-! ## What the region finds -/

variable (m : (ℓ : Loc nD τ sig) → Buf (Elt Ideal) ℓ)

set_option maxHeartbeats 4000000 in
/-- The array the selector's window stages is the host's term. -/
theorem V_selector (c : Dev nD) : (V m c main_v25 : S256x32.Idx → EReal) = selector := by
  dsimp only [V]
  simp only [hostOps0, hostOps0_1, hostOps0_2, List.flatten_cons, List.flatten_nil, List.append_nil, List.cons_append, List.nil_append]
  after_results_simp
  rfl

/-- Entry `(p, q)` of the staged selector is `1` when `p / 8 = q`, else `0`. -/
theorem pool_apply (c : Dev nD) (p : Fin 256) (q : Fin 32) :
    (V m c main_v25 : S256x32.Idx → EReal) (ij p q) = (if p.val / 8 = q.val then (1 : EReal) else 0) := by
  rw [V_selector m c]
  exact selector_apply p q

end Cert.KernelIdeal.Pool

end
-- ==== Proof.KernelRows.lean ====
/-
  The kernel's body, row by row.

  At a grid point the body sees a band of 256 rows of the input and the whole of every weight matrix, bias row and
  selector.  Its stores are chains of the same row-local operations as the reference's stages, so row `r` of each
  stored block is the corresponding function of row `r` of the band.  Narrowing to bf16 and back is the identity on
  extended reals and the self-casts of the weights change nothing.

  The group sums are taken differently: the squares of `z·D` are multiplied by a 256 × 32 selector matrix.  When the
  selector's entry `(a·8 + b, g)` is `1` for `a = g` and `0` otherwise, the product's entry `g` is the sum of the
  squares of group `g`.
-/
import proofs.«122460_j9921374454086_1_alg».proof.Proof.Gen.KernelIdeal.Skeleton
import proofs.«122460_j9921374454086_1_alg».proof.Proof.Spec

noncomputable section

open scoped BigOperators

namespace Cert.KernelRows

open Idealize.ShloMosaic Idealize.ShloMosaic.ValueIdx Cert.LibRowwise Cert.Spec
open Cert.KernelIdeal Cert.KernelIdeal.Gen

variable (v0 : Vec Ideal S256x2048 .f32) (v2 : Vec Ideal S2048x1024 .bf16) (v5 : Vec Ideal S1x1024 .f32)
  (v12 : Vec Ideal S1024x1024 .bf16) (v15 : Vec Ideal S1x1024 .f32) (v22 : Vec Ideal S1024x2048 .bf16)
  (v25 : Vec Ideal S1x2048 .f32) (v32 : Vec Ideal S2048x128 .bf16) (v35 : Vec Ideal S1x128 .f32)
  (v41 : Vec Ideal S128x2048 .bf16) (v44 : Vec Ideal S1x2048 .f32) (v51 : Vec Ideal S2048x1024 .bf16)
  (v54 : Vec Ideal S1x1024 .f32) (v61 : Vec Ideal S1024x1024 .bf16) (v64 : Vec Ideal S1x1024 .f32)
  (v71 : Vec Ideal S1024x2048 .bf16) (v74 : Vec Ideal S1x2048 .f32) (v80 : Vec Ideal S128x256 .bf16)
  (v85 : Vec Ideal S256x32 .bf16)

/-- The loaded blocks as the layers' parameters: each bias is the one row of its block. -/
def params : Params where
  W1 := v2
  b1 := rowOf v5 0
  W2 := v12
  b2 := rowOf v15 0
  W3 := v22
  b3 := rowOf v25 0
  Wz := v32
  bz := rowOf v35 0
  Wd1 := v41
  bd1 := rowOf v44 0
  Wd2 := v51
  bd2 := rowOf v54 0
  Wd3 := v61
  bd3 := rowOf v64 0
  Wx := v71
  bx := rowOf v74 0
  D := v80

/-- Row `r` of the code block is the code of row `r` of the band. -/
theorem rows_codes (r : Fin 256) :
    rowOf (k0_pay4 (F := Ideal) (k0_pay3 v0 v2 v5 v12 v15 v22 v25 v32) v35) r
      = encode (params v2 v5 v12 v15 v22 v25 v32 v35 v41 v44 v51 v54 v61 v64 v71 v74 v80) (rowOf v0 r) :=
  (rowOf_kernel_dense _ v32 v35 none _ _ _ r).trans (congrArg (fun a => dense a v32 (rowOf v35 0))
    ((rowOf_kernel_relu_trunc _ _ r).trans (congrArg relu
      ((rowOf_kernel_dense _ v22 v25 none _ _ _ r).trans (congrArg (fun a => dense a v22 (rowOf v25 0))
        ((rowOf_kernel_relu_trunc _ _ r).trans (congrArg relu
          ((rowOf_kernel_dense _ v12 v15 none _ _ _ r).trans (congrArg (fun a => dense a v12 (rowOf v15 0))
            ((rowOf_kernel_relu_trunc _ _ r).trans (congrArg relu
              (rowOf_kernel_dense _ v2 v5 none _ _ _ r))))))))))))

/-- The decoder's three rectified layers, from whatever the code's product was. -/
theorem rows_pay5 (v34 : FVec Ideal S256x128 .f32) (r : Fin 256) :
    rowOf (k0_pay5 (F := Ideal) v34 v35 v41 v44 v51 v54 v61 v64) r
      = relu (dense (relu (dense (relu (dense (rowOf (k0_pay4 (F := Ideal) v34 v35) r) v41 (rowOf v44 0))) v51 (rowOf v54 0))) v61 (rowOf v64 0)) :=
  (rowOf_kernel_relu_trunc _ _ r).trans (congrArg relu
    ((rowOf_kernel_dense _ v61 v64 none _ _ _ r).trans (congrArg (fun a => dense a v61 (rowOf v64 0))
      ((rowOf_kernel_relu_trunc _ _ r).trans (congrArg relu
        ((rowOf_kernel_dense _ v51 v54 none _ _ _ r).trans (congrArg (fun a => dense a v51 (rowOf v54 0))
          ((rowOf_kernel_relu_trunc _ _ r).trans (congrArg relu
            (rowOf_kernel_dense _ v41 v44 none _ _ _ r))))))))))

/-- The last, linear layer of the decoder. -/
theorem rows_pay1 (v70 : FVec Ideal S256x1024 .bf16) (r : Fin 256) :
    rowOf (k0_pay1 (F := Ideal) v70 v71 v74) r = dense (rowOf v70 r) v71 (rowOf v74 0) :=
  rowOf_kernel_dense v70 v71 v74 none _ _ _ r

/-- Row `r` of the reconstruction block is the reconstruction of row `r` of the band. -/
theorem rows_recon (r : Fin 256) :
    rowOf (k0_pay1 (F := Ideal) (k0_pay5 (k0_pay3 v0 v2 v5 v12 v15 v22 v25 v32) v35 v41 v44 v51 v54 v61 v64) v71 v74) r
      = decode (params v2 v5 v12 v15 v22 v25 v32 v35 v41 v44 v51 v54 v61 v64 v71 v74 v80) (encode (params v2 v5 v12 v15 v22 v25 v32 v35 v41 v44 v51 v54 v61 v64 v71 v74 v80) (rowOf v0 r)) := by
  rw [rows_pay1, rows_pay5, rows_codes v0 v2 v5 v12 v15 v22 v25 v32 v35 v41 v44 v51 v54 v61 v64 v71 v74 v80 r]
  rfl

/-- The affinity chain from whatever the code block was: the selector product is the groups' sums of squares. -/
theorem rows_pay2 (v38 : FVec Ideal S256x128 .f32)
    (hpool : ∀ (a : Fin 32) (b : Fin 8) (g : Fin 32), v85 (ix2 (pos a b) g) = if a = g then 1 else 0) (r : Fin 256) :
    rowOf (k0_pay2 (F := Ideal) v38 v80 v85) r = overSum (shifted (groupSq (rowDot (rowOf v38 r) v80))) := by
  have hsel : rowDot (fun j => rowDot (rowOf v38 r) v80 j * rowDot (rowOf v38 r) v80 j) v85
      = groupSq (rowDot (rowOf v38 r) v80) :=
    funext fun g => sum_mul_selector_fin (G := 32) (W := 8) (N := 256) rfl
      (fun j => rowDot (rowOf v38 r) v80 j * rowDot (rowOf v38 r) v80 j) (fun j => v85 (ix2 j g)) g pos
      (fun _ _ => rfl) (fun a b => hpool a b g)
  exact (rowOf_kernel_overSum _ _ _ _ _ _ _ r).trans (congrArg overSum
    ((rowOf_kernel_shiftScale _ _ _ r).trans (congrArg (shiftScale _ _)
      (((rowOf_kernel_dot _ v85 none _ r).trans (congrArg (fun a => rowDot a v85)
        ((rowOf_kernel_sq (ψ := .bf16) _ _ r).trans (congrArg (fun q : Fin 256 → EReal => fun j => q j * q j)
          (rowOf_kernel_dot _ v80 none _ r))))).trans hsel))))

/-- Row `r` of the affinity block is the affinity of the code of row `r` of the band. -/
theorem rows_affin
    (hpool : ∀ (a : Fin 32) (b : Fin 8) (g : Fin 32), v85 (ix2 (pos a b) g) = if a = g then 1 else 0) (r : Fin 256) :
    rowOf (k0_pay2 (F := Ideal) (k0_pay4 (k0_pay3 v0 v2 v5 v12 v15 v22 v25 v32) v35) v80 v85) r
      = affinity (params v2 v5 v12 v15 v22 v25 v32 v35 v41 v44 v51 v54 v61 v64 v71 v74 v80) (encode (params v2 v5 v12 v15 v22 v25 v32 v35 v41 v44 v51 v54 v61 v64 v71 v74 v80) (rowOf v0 r)) := by
  rw [rows_pay2 v80 v85 _ hpool r, rows_codes v0 v2 v5 v12 v15 v22 v25 v32 v35 v41 v44 v51 v54 v61 v64 v71 v74 v80 r]
  rfl

end Cert.KernelRows

end
-- ==== Proof.KernelValue.lean ====
/-
  The kernel's three result arrays.

  At grid point `t` the input window holds rows `256·t … 256·t + 255` of `x`, every other input window holds its whole
  array, and each output window writes back rows `256·t … 256·t + 255` of its array.  The staged weight matrices are
  the arguments (narrowed, which changes nothing here), the staged biases are the argument vectors as one row, and
  the staged selector is the 0/1 matrix of "column `j` belongs to group `g`".  So the block a point writes back is,
  row by row, the encoder, the decoder or the affinity chain applied to the corresponding row of `x`; the 64 bands
  cover all 16384 rows, and each result array ends as the array of those rows.
-/
import proofs.«122460_j9921374454086_1_alg».proof.Proof.Gen.KernelIdeal.Value
import proofs.«122460_j9921374454086_1_alg».proof.Proof.WindowArrays
import proofs.«122460_j9921374454086_1_alg».proof.Proof.WindowBlocks
import proofs.«122460_j9921374454086_1_alg».proof.Proof.PoolMatrix
import proofs.«122460_j9921374454086_1_alg».proof.Proof.KernelRows

noncomputable section

open scoped BigOperators

namespace Cert.KernelIdeal.Final

open Idealize.ShloMosaic Idealize.ShloMosaic.TcCoe Idealize.SL.Sem Idealize.ShloMosaic.ValueIdx
open Idealize.ShloMosaic.Pipeline (Dat)
open Cert.LibRowwise Cert.Spec Cert.KernelIdeal Cert.KernelIdeal.Gen

/-! ## From a band's rows to an index of the array -/

/-- A block whose row `r` is row `n₀ + r` of a family of rows is that family's array read at the indices under it. -/
theorem block_at_index {N : ℕ} (B : (⟨2, ![256, N]⟩ : Shape).Idx → EReal) (f : Fin 16384 → Fin N → EReal) (n₀ : ℕ)
    (hn : n₀ + 256 ≤ 16384) (hB : ∀ r : Fin 256, rowOf B r = f ⟨n₀ + r.val, by have := r.isLt; omega⟩)
    (y : (⟨2, ![256, N]⟩ : Shape).Idx) (i : (⟨2, ![16384, N]⟩ : Shape).Idx)
    (hi0 : (i 0).val = n₀ + (y 0).val) (hi1 : (i 1).val = (y 1).val) : B y = ofRows f i := by
  have e : B (ix2 (y 0) (y 1)) = f ⟨n₀ + (y 0).val, by have := idx2_lt0 y; omega⟩ (y 1) := congrFun (hB (y 0)) (y 1)
  have h0 : (⟨n₀ + (y 0).val, by have := idx2_lt0 y; omega⟩ : Fin 16384) = i 0 := Fin.ext hi0.symm
  have h1 : (y 1 : Fin N) = (i 1 : Fin N) := Fin.ext hi1.symm
  exact (congrArg B (eq_ix2 y)).trans (e.trans (congr (congrArg f h0) h1))

/-- The loaded blocks' parameters are the arguments' when each weight block is its argument and each bias block is
    its argument vector stored as one row. -/
theorem params_of_staged
    (v2 : Vec Ideal S2048x1024 .bf16) (v5 : Vec Ideal S1x1024 .f32) (v12 : Vec Ideal S1024x1024 .bf16) (v15 : Vec Ideal S1x1024 .f32)
    (v22 : Vec Ideal S1024x2048 .bf16) (v25 : Vec Ideal S1x2048 .f32) (v32 : Vec Ideal S2048x128 .bf16) (v35 : Vec Ideal S1x128 .f32)
    (v41 : Vec Ideal S128x2048 .bf16) (v44 : Vec Ideal S1x2048 .f32) (v51 : Vec Ideal S2048x1024 .bf16) (v54 : Vec Ideal S1x1024 .f32)
    (v61 : Vec Ideal S1024x1024 .bf16) (v64 : Vec Ideal S1x1024 .f32) (v71 : Vec Ideal S1024x2048 .bf16) (v74 : Vec Ideal S1x2048 .f32)
    (v80 : Vec Ideal S128x256 .bf16)
    (a1 : S2048x1024.Idx → EReal) (a2 : S1024.Idx → EReal) (a3 : S1024x1024.Idx → EReal) (a4 : S1024.Idx → EReal)
    (a5 : S1024x2048.Idx → EReal) (a6 : S2048.Idx → EReal) (a7 : S2048x128.Idx → EReal) (a8 : S128.Idx → EReal)
    (a9 : S128x2048.Idx → EReal) (a10 : S2048.Idx → EReal) (a11 : S2048x1024.Idx → EReal) (a12 : S1024.Idx → EReal)
    (a13 : S1024x1024.Idx → EReal) (a14 : S1024.Idx → EReal) (a15 : S1024x2048.Idx → EReal) (a16 : S2048.Idx → EReal)
    (a17 : S128x256.Idx → EReal)
    (h2 : v2 = a1) (h5 : v5 = shapeCast S1x1024 a2 shapeCasts_S1024_S1x1024) (h12 : v12 = a3) (h15 : v15 = shapeCast S1x1024 a4 shapeCasts_S1024_S1x1024)
    (h22 : v22 = a5) (h25 : v25 = shapeCast S1x2048 a6 shapeCasts_S2048_S1x2048) (h32 : v32 = a7) (h35 : v35 = shapeCast S1x128 a8 shapeCasts_S128_S1x128)
    (h41 : v41 = a9) (h44 : v44 = shapeCast S1x2048 a10 shapeCasts_S2048_S1x2048) (h51 : v51 = a11) (h54 : v54 = shapeCast S1x1024 a12 shapeCasts_S1024_S1x1024)
    (h61 : v61 = a13) (h64 : v64 = shapeCast S1x1024 a14 shapeCasts_S1024_S1x1024) (h71 : v71 = a15) (h74 : v74 = shapeCast S1x2048 a16 shapeCasts_S2048_S1x2048)
    (h80 : v80 = a17) :
    Cert.KernelRows.params v2 v5 v12 v15 v22 v25 v32 v35 v41 v44 v51 v54 v61 v64 v71 v74 v80
      = paramsOf a1 a2 a3 a4 a5 a6 a7 a8 a9 a10 a11 a12 a13 a14 a15 a16 a17 := by
  subst h2 h5 h12 h15 h22 h25 h32 h35 h41 h44 h51 h54 h61 h64 h71 h74 h80
  unfold Cert.KernelRows.params paramsOf
  simp only [rowOf_shapeCast_vec]
  rfl

variable (m : (ℓ : Loc nD τ sig) → Buf (Elt Ideal) ℓ) (ρ : Dev nD → PrngReg)

/-! ## The windows at a point -/

/-- The printed index maps of the four row-banded windows, decided over the grid: block `(t, 0)` at point `t`. -/
theorem idx_rows : ∀ t : Fin cfg0.N,
    (win0_0.index t (0 : Fin 2) = t.val ∧ win0_0.index t (1 : Fin 2) = 0)
    ∧ (win0_19.index t (0 : Fin 2) = t.val ∧ win0_19.index t (1 : Fin 2) = 0)
    ∧ (win0_20.index t (0 : Fin 2) = t.val ∧ win0_20.index t (1 : Fin 2) = 0)
    ∧ (win0_21.index t (0 : Fin 2) = t.val ∧ win0_21.index t (1 : Fin 2) = 0) :=
  (by decide +kernel : ∀ t : Fin grid0.N, _)

theorem t_lt (t : Fin cfg0.N) : t.val < 64 := by
  have h := t.isLt
  have hN : cfg0.N = 64 := N_0
  omega

/-- The input array and the parameters, from the launch memory. -/
abbrev X (c : Dev nD) : Mat 16384 2048 := m ((c : Thread nD τ).loc main_arg0)
def kparams (c : Dev nD) : Params := paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- Row `r` of the band at point `t` is row `256·t + r` of `x`. -/
theorem band_row (c : Dev nD) (t : Fin cfg0.N) (r : Fin 256) :
    rowOf (iblk m c 0 t : Vec Ideal S256x2048 .f32) r
      = rowOf (X m c) ⟨256 * t.val + r.val, by have := t_lt t; have := r.isLt; omega⟩ := by
  funext k
  show (iblk m c 0 t : Vec Ideal S256x2048 .f32) (ix2 r k) = X m c (ix2 _ k)
  unfold iblk
  rw [View.read_apply]
  show V m c main_arg0 _ = _
  rw [V_main_arg0]
  refine congrArg (m ((c : Thread nD τ).loc main_arg0)) (funext fun a => Fin.ext ?_)
  obtain ⟨h0, h1⟩ := (idx_rows t).1
  match a with
  | ⟨0, _⟩ => show win0_0.index t (0 : Fin 2) * 256 + 1 * r.val = 256 * t.val + r.val; rw [h0]; omega
  | ⟨1, _⟩ => show win0_0.index t (1 : Fin 2) * 2048 + 1 * k.val = k.val; rw [h1]; omega

/-- The parameters the body sees at any point are the arguments'. -/
theorem block_params (c : Dev nD) (t : Fin cfg0.N) :
    Cert.KernelRows.params (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = kparams m c :=
  params_of_staged _ _ _ _ _ _ _ _ _ _ _ _ _ _ _ _ _ _ _ _ _ _ _ _ _ _ _ _ _ _ _ _ _ _
    ((Cert.KernelIdeal.Blocks.blk1 m c t).trans (Cert.KernelIdeal.Staged.V_main_v0 m c))
    ((Cert.KernelIdeal.Blocks.blk2 m c t).trans (Cert.KernelIdeal.Staged.V_main_v9 m c))
    ((Cert.KernelIdeal.Blocks.blk3 m c t).trans (Cert.KernelIdeal.Staged.V_main_v1 m c))
    ((Cert.KernelIdeal.Blocks.blk4 m c t).trans (Cert.KernelIdeal.Staged.V_main_v10 m c))
    ((Cert.KernelIdeal.Blocks.blk5 m c t).trans (Cert.KernelIdeal.Staged.V_main_v2 m c))
    ((Cert.KernelIdeal.Blocks.blk6 m c t).trans (Cert.KernelIdeal.Staged.V_main_v11 m c))
    ((Cert.KernelIdeal.Blocks.blk7 m c t).trans (Cert.KernelIdeal.Staged.V_main_v3 m c))
    ((Cert.KernelIdeal.Blocks.blk8 m c t).trans (Cert.KernelIdeal.Staged.V_main_v12 m c))
    ((Cert.KernelIdeal.Blocks.blk9 m c t).trans (Cert.KernelIdeal.Staged.V_main_v4 m c))
    ((Cert.KernelIdeal.Blocks.blk10 m c t).trans (Cert.KernelIdeal.Staged.V_main_v13 m c))
    ((Cert.KernelIdeal.Blocks.blk11 m c t).trans (Cert.KernelIdeal.Staged.V_main_v5 m c))
    ((Cert.KernelIdeal.Blocks.blk12 m c t).trans (Cert.KernelIdeal.Staged.V_main_v14 m c))
    ((Cert.KernelIdeal.Blocks.blk13 m c t).trans (Cert.KernelIdeal.Staged.V_main_v6 m c))
    ((Cert.KernelIdeal.Blocks.blk14 m c t).trans (Cert.KernelIdeal.Staged.V_main_v15 m c))
    ((Cert.KernelIdeal.Blocks.blk15 m c t).trans (Cert.KernelIdeal.Staged.V_main_v7 m c))
    ((Cert.KernelIdeal.Blocks.blk16 m c t).trans (Cert.KernelIdeal.Staged.V_main_v16 m c))
    ((Cert.KernelIdeal.Blocks.blk17 m c t).trans (Cert.KernelIdeal.Staged.V_main_v8 m c))

/-- The selector block is `1` at `(a·8 + b, g)` when `a = g`, else `0`. -/
theorem block_pool (c : Dev nD) (t : Fin cfg0.N) (a : Fin 32) (b : Fin 8) (g : Fin 32) :
    (iblk m c 18 t : Vec Ideal S256x32 .bf16) (ix2 (pos a b) g) = (if a = g then (1 : EReal) else 0) := by
  rw [Cert.KernelIdeal.Blocks.blk18 m c t]
  have e : (ix2 (pos a b) g : S256x32.Idx) = Idealize.ShloMosaic.StableHlo.Predicate.ij (pos a b) g :=
    funext fun d => by match d with | ⟨0, _⟩ => rfl | ⟨1, _⟩ => rfl
  rw [e, Cert.KernelIdeal.Pool.pool_apply m c (pos a b) g]
  have hd : (pos a b).val / 8 = a.val := by
    show (a.val * 8 + b.val) / 8 = a.val
    have := b.isLt; omega
  rw [hd]
  simp only [Fin.ext_iff]

theorem hz : (![0, 0] : Fin 2 → Nat) = fun _ => 0 := funext fun a => by fin_cases a <;> rfl

end Cert.KernelIdeal.Final

end
-- ==== Proof.KernelRun.lean ====
/-
  The kernel's run, read: each result array after the run is the array of its rows' results, and the arguments are as
  launched.
-/
import proofs.«122460_j9921374454086_1_alg».proof.Proof.FinalCodes
import proofs.«122460_j9921374454086_1_alg».proof.Proof.FinalRecon
import proofs.«122460_j9921374454086_1_alg».proof.Proof.FinalAffin

noncomputable section

namespace Cert.KernelIdeal.Final

open Idealize.ShloMosaic Idealize.ShloMosaic.TcCoe Idealize.SL.Sem
open Cert.Spec Cert.KernelIdeal Cert.KernelIdeal.Gen

variable (m : (ℓ : Loc nD τ sig) → Buf (Elt Ideal) ℓ) (ρ : Dev nD → PrngReg)

/-- Every weakly fair execution of the idealized kernel terminates with the three result arrays at the arrays of the
    rows' reconstructions, affinities and codes, the arguments unchanged. -/
theorem run : θ_run defs (onTc (τ := τ) (main (F := Ideal))) ⟨m, fun _ => 0, ρ⟩ fun r => ∀ c : Dev nD,
      r.2.mem ((c : Thread nD τ).loc main_v26_0) = recon (kparams m c) (X m c)
      ∧ r.2.mem ((c : Thread nD τ).loc main_v26_1) = affin (kparams m c) (X m c)
      ∧ r.2.mem ((c : Thread nD τ).loc main_v26_2) = codes (kparams m c) (X m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final19 m c), (h c).2.1.trans (final20 m c),
      (h c).2.2.1.trans (final21 m c), (h c).2.2.2⟩)
    (Cert.KernelIdeal.Value.run_blocks m ρ)

end Cert.KernelIdeal.Final

end
-- ==== Proof.lean ====
/-
  The certificate of an autoencoder with a subspace-affinity head, fused into one kernel that works on bands of 256
  rows, against the same network written with whole-array host operations.

  Both programs compute, for every row `x` of the 16384 × 2048 input: the code `z` (three rectified dense layers and a
  linear one), the reconstruction (the mirror chain from `z`), and the affinities (the 256 entries of `z·D` in 32
  groups of 8, each group's sum of squares `S`, then `(S + 40)/48` divided by its sum over the groups).  On extended
  reals the kernel's narrowing to bf16 is the identity and a product accumulated into zero is the host's product, so
  layer by layer the two programs apply the same function to a row.  The one place they differ in form is the group
  sums: the reference regroups the columns and sums over the last axis, the kernel multiplies the squares by a 0/1
  selector matrix built by the host; both are the sum of the squares of the group's eight entries, because
  `x · 1 = x` and `x · 0 = 0` for every extended real.  No step needs a finite value, so the precondition is not
  opened.

  The kernel's value is read off its frame: a point's write-back is the body's payload of that point's blocks; the
  payload's rows are the row functions of the band's rows (KernelRows); the bands cover the array (FinalCodes,
  FinalRecon, FinalAffin).  The reference's value is read off its run, stage by stage (RefRows).  The ledger of the
  idealization is empty.
-/
import proofs.«122460_j9921374454086_1_alg».proof.Defs
import proofs.«122460_j9921374454086_1_alg».proof.Proof.Gen.Kernel
import proofs.«122460_j9921374454086_1_alg».proof.Proof.Gen.Kernel.Skeleton
import proofs.«122460_j9921374454086_1_alg».proof.Proof.Gen.Kernel.Launch
import proofs.«122460_j9921374454086_1_alg».proof.Proof.Gen.Kernel.Points
import proofs.«122460_j9921374454086_1_alg».proof.Proof.Gen.Kernel.Frame
import proofs.«122460_j9921374454086_1_alg».proof.Proof.Gen.KernelIdeal
import proofs.«122460_j9921374454086_1_alg».proof.Proof.Gen.KernelIdeal.Skeleton
import proofs.«122460_j9921374454086_1_alg».proof.Proof.Gen.KernelIdeal.Launch
import proofs.«122460_j9921374454086_1_alg».proof.Proof.Gen.KernelIdeal.Points
import proofs.«122460_j9921374454086_1_alg».proof.Proof.Gen.KernelIdeal.Frame
import proofs.«122460_j9921374454086_1_alg».proof.Proof.Gen.ReferenceIdeal
import proofs.«122460_j9921374454086_1_alg».proof.Proof.Gen.Pre_finite_inputs
import proofs.«122460_j9921374454086_1_alg».proof.Proof.Gen.KernelIdeal.Value
import proofs.«122460_j9921374454086_1_alg».proof.Proof.Gen.ReferenceIdeal.Run
import proofs.«122460_j9921374454086_1_alg».proof.Proof.Gen.ReferenceIdeal.Read
import proofs.«122460_j9921374454086_1_alg».proof.Proof.RefRows
import proofs.«122460_j9921374454086_1_alg».proof.Proof.KernelRun
import Idealize.ShloMosaic.Adequacy
import Idealize.ShloMosaic.Init

noncomputable section

namespace Cert.Proof

open Idealize.ShloMosaic Idealize.SL.Sem Cert.Spec

theorem frame_k : Cert.frame_Kernel :=
  fun m ρ _ => Cert.Kernel.Gen.frame m ρ

theorem frame_ki : Cert.frame_KernelIdeal :=
  fun m ρ _ => Cert.KernelIdeal.Gen.frame m ρ

/-- The reference's frame is its run with the results dropped. -/
theorem frame_ri : Cert.frame_ReferenceIdeal :=
  fun m ρ _ => (θ_run Cert.ReferenceIdeal.defs _ _).mono (fun _ h c => (h c).2.2.2)
    (Cert.ReferenceIdeal.Value.run (F := Ideal) m ρ)

/-- From memories that agree on the arguments the two idealized programs end with the same three arrays: the arrays of
    the rows' reconstructions, affinities and codes. -/
theorem algebraic : Cert.algebraic_KernelIdeal_ReferenceIdeal := by
  intro m ρ m' ρ' _ hagree
  refine ⟨fun c => recon (Cert.KernelIdeal.Final.kparams m c) (Cert.KernelIdeal.Final.X m c),
    fun c => affin (Cert.KernelIdeal.Final.kparams m c) (Cert.KernelIdeal.Final.X m c),
    fun c => codes (Cert.KernelIdeal.Final.kparams m c) (Cert.KernelIdeal.Final.X m c),
    Cert.KernelIdeal.Final.run m ρ, ?_⟩
  refine (θ_run Cert.ReferenceIdeal.defs _ _).mono (fun r h c => ?_) (Cert.ReferenceIdeal.Value.run (F := Ideal) m' ρ')
  obtain ⟨e0, e1, e2, e3, e4, e5, e6, e7, e8, e9, e10, e11, e12, e13, e14, e15, e16, e17⟩ := hagree c
  have hp : Cert.RefRows.params (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
      = Cert.KernelIdeal.Final.kparams m c := by
    unfold Cert.KernelIdeal.Final.kparams
    rw [e1, e2, e3, e4, e5, e6, e7, e8, e9, e10, e11, e12, e13, e14, e15, e16, e17]
  refine ⟨(h c).1.trans ?_, (h c).2.1.trans ?_, (h c).2.2.1.trans ?_, (h c).2.2.2⟩
  · refine (Cert.ReferenceIdeal.Read.val_main_v37_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))).trans ?_
    rw [Cert.RefRows.recon_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)), hp, e0]
  · refine (Cert.ReferenceIdeal.Read.val_main_v49_eq m' c).trans ?_
    rw [Cert.RefRows.affin_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)), hp, e0]
  · refine (Cert.ReferenceIdeal.Read.val_main_v18_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))).trans ?_
    rw [Cert.RefRows.codes_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)), hp, e0]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
